-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x768 : Shape := ⟨3, ![16, 64, 768]⟩
abbrev S18x768 : Shape := ⟨2, ![18, 768]⟩
abbrev S18 : Shape := ⟨1, ![18]⟩
abbrev S18x256 : Shape := ⟨2, ![18, 256]⟩
abbrev S43234x512 : Shape := ⟨2, ![43234, 512]⟩
abbrev S16 : Shape := ⟨1, ![16]⟩
abbrev S_ : Shape := ⟨0, ![]⟩

class Facts : Prop where
  bcast_S_S16x64x768 : S_.BroadcastsInDim S16x64x768 (![] : Fin 0 → Fin S16x64x768.rank)
  reducesTo_S16x64x768_S_d0_1_2 : S16x64x768.ReducesTo [0, 1, 2] S_
  h_S_ : 0 < S_.numel
  bcast_S_S18x768 : S_.BroadcastsInDim S18x768 (![] : Fin 0 → Fin S18x768.rank)
  reducesTo_S18x768_S_d0_1 : S18x768.ReducesTo [0, 1] S_
  bcast_S_S18 : S_.BroadcastsInDim S18 (![] : Fin 0 → Fin S18.rank)
  reducesTo_S18_S_d0 : S18.ReducesTo [0] S_
  bcast_S_S18x256 : S_.BroadcastsInDim S18x256 (![] : Fin 0 → Fin S18x256.rank)
  reducesTo_S18x256_S_d0_1 : S18x256.ReducesTo [0, 1] S_
  bcast_S_S43234x512 : S_.BroadcastsInDim S43234x512 (![] : Fin 0 → Fin S43234x512.rank)
  reducesTo_S43234x512_S_d0_1 : S43234x512.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S43234x512 .f32) (main_arg5 : IVec S16 32) (main_v13 : IVec S_ 1) (main_v16 : IVec S18x256 1) : IVec S_ 1 :=
  let main_c_5 : IVec S_ 1 := constantI S_ 1 1#1
  let main_v17 : IVec S_ 1 := (fun x v => Host.reduce IntOp.andi x v reducesTo_S18x256_S_d0_1 h_S_) main_v16 main_c_5
  let main_v18 : IVec S_ 1 := andi main_v13 main_v17
  let main_v19 : FVec F S43234x512 .f32 := Host.absf main_arg4
  let main_cst_6 : FVec F S_ .f32 := constant S_ .f32 0x7F800000#32
  let main_v20 : FVec F S43234x512 .f32 := broadcastInDim S43234x512 ![] bcast_S_S43234x512 main_cst_6
  let main_v21 : IVec S43234x512 1 := cmpf .olt main_v19 main_v20
  let main_c_7 : IVec S_ 1 := constantI S_ 1 1#1
  let main_v22 : IVec S_ 1 := (fun x v => Host.reduce IntOp.andi x v reducesTo_S43234x512_S_d0_1 h_S_) main_v21 main_c_7
  let main_v23 : IVec S_ 1 := andi main_v18 main_v22
  let main_c_8 : IVec S_ 32 := constantI S_ 32 0#32
  let main_v24 : IVec S16 32 := broadcastInDim S16 ![] bcast_S_S16 main_c_8
  let main_v25 : IVec S16 1 := cmpi .sge main_arg5 main_v24
  let main_c_9 : IVec S_ 32 := constantI S_ 32 43234#32
  let main_v26 : IVec S16 32 := broadcastInDim S16 ![] bcast_S_S16 main_c_9
  let main_v27 : IVec S16 1 := cmpi .slt main_arg5 main_v26
  let main_v28 : IVec S16 1 := andi main_v25 main_v27
  let main_c_10 : IVec S_ 1 := constantI S_ 1 1#1
  let main_v29 : IVec S_ 1 := (fun x v => Host.reduce IntOp.andi x v reducesTo_S16_S_d0 h_S_) main_v28 main_c_10
  let main_v30 : IVec S_ 1 := andi main_v23 main_v29
  main_v30

def fn {F : FTy → Type} [FloatOps F] (main_arg0 : FVec F S16x64x768 .f32) (main_arg1 : FVec F S18x768 .f32) (main_arg2 : FVec F S18 .f32) (main_arg3 : FVec F S18x256 .f32) (main_arg4 : FVec F S43234x512 .f32) (main_arg5 : IVec S16 32) : IVec S_ 1 :=
  let main_v0 : FVec F S16x64x768 .f32 := Host.absf main_arg0
  let main_cst : FVec F S_ .f32 := constant S_ .f32 0x7F800000#32
  let main_v1 : FVec F S16x64x768 .f32 := broadcastInDim S16x64x768 ![] bcast_S_S16x64x768 main_cst
  let main_v2 : IVec S16x64x768 1 := cmpf .olt main_v0 main_v1
  let main_c : IVec S_ 1 := constantI S_ 1 1#1
  let main_v3 : IVec S_ 1 := (fun x v => Host.reduce IntOp.andi x v reducesTo_S16x64x768_S_d0_1_2 h_S_) main_v2 main_c
  let main_v4 : FVec F S18x768 .f32 := Host.absf main_arg1
  let main_cst_0 : FVec F S_ .f32 := constant S_ .f32 0x7F800000#32
  let main_v5 : FVec F S18x768 .f32 := broadcastInDim S18x768 ![] bcast_S_S18x768 main_cst_0
  let main_v6 : IVec S18x768 1 := cmpf .olt main_v4 main_v5
  let main_c_1 : IVec S_ 1 := constantI S_ 1 1#1
  let main_v7 : IVec S_ 1 := (fun x v => Host.reduce IntOp.andi x v reducesTo_S18x768_S_d0_1 h_S_) main_v6 main_c_1
  let main_v8 : IVec S_ 1 := andi main_v3 main_v7
  let main_v9 : FVec F S18 .f32 := Host.absf main_arg2
  let main_cst_2 : FVec F S_ .f32 := constant S_ .f32 0x7F800000#32
  let main_v10 : FVec F S18 .f32 := broadcastInDim S18 ![] bcast_S_S18 main_cst_2
  let main_v11 : IVec S18 1 := cmpf .olt main_v9 main_v10
  let main_c_3 : IVec S_ 1 := constantI S_ 1 1#1
  let main_v12 : IVec S_ 1 := (fun x v => Host.reduce IntOp.andi x v reducesTo_S18_S_d0 h_S_) main_v11 main_c_3
  let main_v13 : IVec S_ 1 := andi main_v8 main_v12
  let main_v14 : FVec F S18x256 .f32 := Host.absf main_arg3
  let main_cst_4 : FVec F S_ .f32 := constant S_ .f32 0x7F800000#32
  let main_v15 : FVec F S18x256 .f32 := broadcastInDim S18x256 ![] bcast_S_S18x256 main_cst_4
  let main_v16 : IVec S18x256 1 := cmpf .olt main_v14 main_v15
  fn_part1 (F := F) main_arg4 main_arg5 main_v13 main_v16
-- ==== Kernel.lean ====
abbrev S16x64x768 : Shape := ⟨3, ![16, 64, 768]⟩
abbrev S18x768 : Shape := ⟨2, ![18, 768]⟩
abbrev S18 : Shape := ⟨1, ![18]⟩
abbrev S18x256 : Shape := ⟨2, ![18, 256]⟩
abbrev S43234x512 : Shape := ⟨2, ![43234, 512]⟩
abbrev S16 : Shape := ⟨1, ![16]⟩
abbrev S_ : Shape := ⟨0, ![]⟩
abbrev S16x768 : Shape := ⟨2, ![16, 768]⟩
abbrev S768x18 : Shape := ⟨2, ![768, 18]⟩
abbrev S16x18 : Shape := ⟨2, ![16, 18]⟩
abbrev S1x18 : Shape := ⟨2, ![1, 18]⟩
abbrev S16x256 : Shape := ⟨2, ![16, 256]⟩
abbrev S16x1 : Shape := ⟨2, ![16, 1]⟩
abbrev S1 : Shape := ⟨1, ![1]⟩
abbrev S1x1 : Shape := ⟨2, ![1, 1]⟩
abbrev S16x512 : Shape := ⟨2, ![16, 512]⟩
abbrev S16x43234 : Shape := ⟨2, ![16, 43234]⟩
abbrev S2048x512 : Shape := ⟨2, ![2048, 512]⟩
abbrev S16x2048 : Shape := ⟨2, ![16, 2048]⟩
abbrev S128x512 : Shape := ⟨2, ![128, 512]⟩
abbrev S128x256 : Shape := ⟨2, ![128, 256]⟩
abbrev S16x1x256 : Shape := ⟨3, ![16, 1, 256]⟩
abbrev S1x128x256 : Shape := ⟨3, ![1, 128, 256]⟩
abbrev S16x128x256 : Shape := ⟨3, ![16, 128, 256]⟩
abbrev S16x128 : Shape := ⟨2, ![16, 128]⟩

abbrev nBuf : Space → Nat
  | .hbm => 62
  | .vmem => 6
  | .smem => 0
  | _ => 0

abbrev bufTy : (tb : Table) → Fin (tcTables nBuf tb) → BufTy
  | .hbm, ⟨0, _⟩ => ⟨S16x64x768, .f32⟩
  | .hbm, ⟨1, _⟩ => ⟨S18x768, .f32⟩
  | .hbm, ⟨2, _⟩ => ⟨S18, .f32⟩
  | .hbm, ⟨3, _⟩ => ⟨S18x256, .f32⟩
  | .hbm, ⟨4, _⟩ => ⟨S43234x512, .f32⟩
  | .hbm, ⟨5, _⟩ => ⟨S16, .i32⟩
  | .hbm, ⟨6, _⟩ => ⟨S_, .f32⟩
  | .hbm, ⟨7, _⟩ => ⟨S16x768, .f32⟩
  | .hbm, ⟨8, _⟩ => ⟨S_, .f32⟩
  | .hbm, ⟨9, _⟩ => ⟨S16x768, .f32⟩
  | .hbm, ⟨10, _⟩ => ⟨S16x768, .f32⟩
  | .hbm, ⟨11, _⟩ => ⟨S768x18, .f32⟩
  | .hbm, ⟨12, _⟩ => ⟨S16x18, .f32⟩
  | .hbm, ⟨13, _⟩ => ⟨S1x18, .f32⟩
  | .hbm, ⟨14, _⟩ => ⟨S16x18, .f32⟩
  | .hbm, ⟨15, _⟩ => ⟨S16x18, .f32⟩
  | .hbm, ⟨16, _⟩ => ⟨S16x18, .f32⟩
  | .hbm, ⟨17, _⟩ => ⟨S16x18, .f32⟩
  | .hbm, ⟨18, _⟩ => ⟨S_, .f32⟩
  | .hbm, ⟨19, _⟩ => ⟨S16x18, .f32⟩
  | .hbm, ⟨20, _⟩ => ⟨S16x18, .f32⟩
  | .hbm, ⟨21, _⟩ => ⟨S_, .f32⟩
  | .hbm, ⟨22, _⟩ => ⟨S16x18, .f32⟩
  | .hbm, ⟨23, _⟩ => ⟨S16x18, .f32⟩
  | .hbm, ⟨24, _⟩ => ⟨S16x256, .f32⟩
  | .hbm, ⟨25, _⟩ => ⟨S_, .i32⟩
  | .hbm, ⟨26, _⟩ => ⟨S16, .i32⟩
  | .hbm, ⟨27, _⟩ => ⟨S16, .i1⟩
  | .hbm, ⟨28, _⟩ => ⟨S_, .i32⟩
  | .hbm, ⟨29, _⟩ => ⟨S16, .i32⟩
  | .hbm, ⟨30, _⟩ => ⟨S16, .i32⟩
  | .hbm, ⟨31, _⟩ => ⟨S16, .i32⟩
  | .hbm, ⟨32, _⟩ => ⟨S16x1, .i32⟩
  | .hbm, ⟨33, _⟩ => ⟨S1, .i32⟩
  | .hbm, ⟨34, _⟩ => ⟨S_, .i32⟩
  | .hbm, ⟨35, _⟩ => ⟨S16x1, .i32⟩
  | .hbm, ⟨36, _⟩ => ⟨S16x1, .i1⟩
  | .hbm, ⟨37, _⟩ => ⟨S1x1, .i32⟩
  | .hbm, ⟨38, _⟩ => ⟨S16x1, .i32⟩
  | .hbm, ⟨39, _⟩ => ⟨S16x1, .i1⟩
  | .hbm, ⟨40, _⟩ => ⟨S16x1, .i1⟩
  | .hbm, ⟨41, _⟩ => ⟨S_, .i1⟩
  | .hbm, ⟨42, _⟩ => ⟨S16, .i1⟩
  | .hbm, ⟨43, _⟩ => ⟨S16x512, .f32⟩
  | .hbm, ⟨44, _⟩ => ⟨S16x512, .i1⟩
  | .hbm, ⟨45, _⟩ => ⟨S_, .f32⟩
  | .hbm, ⟨46, _⟩ => ⟨S16x512, .f32⟩
  | .hbm, ⟨47, _⟩ => ⟨S16x512, .f32⟩
  | .hbm, ⟨48, _⟩ => ⟨S16x256, .f32⟩
  | .hbm, ⟨49, _⟩ => ⟨S16x256, .f32⟩
  | .hbm, ⟨50, _⟩ => ⟨S_, .f32⟩
  | .hbm, ⟨51, _⟩ => ⟨S16x256, .f32⟩
  | .hbm, ⟨52, _⟩ => ⟨S16x256, .f32⟩
  | .hbm, ⟨53, _⟩ => ⟨S16x256, .f32⟩
  | .hbm, ⟨54, _⟩ => ⟨S16x256, .f32⟩
  | .hbm, ⟨55, _⟩ => ⟨S16x256, .f32⟩
  | .hbm, ⟨56, _⟩ => ⟨S16x256, .f32⟩
  | .hbm, ⟨57, _⟩ => ⟨S16x256, .f32⟩
  | .hbm, ⟨58, _⟩ => ⟨S16x256, .f32⟩
  | .hbm, ⟨59, _⟩ => ⟨S16x256, .f32⟩
  | .hbm, ⟨60, _⟩ => ⟨S16x256, .f32⟩
  | .hbm, ⟨61, _⟩ => ⟨S16x43234, .f32⟩
  | .local _ .vmem, ⟨0, _⟩ => ⟨S16x256, .f32⟩
  | .local _ .vmem, ⟨1, _⟩ => ⟨S16x256, .f32⟩
  | .local _ .vmem, ⟨2, _⟩ => ⟨S2048x512, .f32⟩
  | .local _ .vmem, ⟨3, _⟩ => ⟨S2048x512, .f32⟩
  | .local _ .vmem, ⟨4, _⟩ => ⟨S16x2048, .f32⟩
  | .local _ .vmem, ⟨5, _⟩ => ⟨S16x2048, .f32⟩
  | _, _ => ⟨S16x64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_3 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![22], ![false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v5 : BitVec 32 := Scalar.muli arg5 c128_i32
  v5
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v5 : BitVec 32 := Scalar.muli arg5 c128_i32
  let v6 : BitVec 32 := v5
  let v7 : Index := Scalar.indexCast v6
  let c0_4 : Index := 0#32
  ![v7.toNat, 0]
def k0_off2 (k0_t1 : Fin k0_t1_loop.trips) : Fin 2 → Nat :=
  let c0_6 : Index := 0#32
  let c0_i32 : BitVec 32 := 0#32
  let c1_i32 : BitVec 32 := 1#32
  let arg5 : BitVec 32 := Scf.iv c0_i32 c1_i32 k0_t1
  let c128_i32 : BitVec 32 := 128#32
  let v5 : BitVec 32 := Scalar.muli arg5 c128_i32
  let v6 : BitVec 32 := v5
  let v28 : Index := Scalar.indexCast v6
  ![0, v28.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S16x64x768_S16x768_d1 : S16x64x768.ReducesTo [1] S16x768
  h_S_ : 0 < S_.numel
  bcast_S_S16x768 : S_.BroadcastsInDim S16x768 (![] : Fin 0 → Fin S16x768.rank)
  transposes_S18x768_S768x18_1_0 : S18x768.Transposes [1, 0] S768x18
  bcast_S18_S1x18_1 : S18.BroadcastsInDim S1x18 (![1] : Fin 1 → Fin S1x18.rank)
  bcast_S1x18_S16x18_0_1 : S1x18.BroadcastsInDim S16x18 (![0, 1] : Fin 2 → Fin S16x18.rank)
  bcast_S_S16x18 : S_.BroadcastsInDim S16x18 (![] : Fin 0 → Fin S16x18.rank)
  bcast_S_S16 : S_.BroadcastsInDim S16 (![] : Fin 0 → Fin S16.rank)
  bcast_S16_S16x1_0 : S16.BroadcastsInDim S16x1 (![0] : Fin 1 → Fin S16x1.rank)
  bcast_S_S16x1 : S_.BroadcastsInDim S16x1 (![] : Fin 0 → Fin S16x1.rank)
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  reducesTo_S16x1_S16_d1 : S16x1.ReducesTo [1] S16
  bcast_S16_S16x512_0 : S16.BroadcastsInDim S16x512 (![0] : Fin 1 → Fin S16x512.rank)
  bcast_S_S16x512 : S_.BroadcastsInDim S16x512 (![] : Fin 0 → Fin S16x512.rank)
  slices_S16x512_S16x256_0_0 : S16x512.Slices ![0, 0] S16x256
  slices_S16x512_S16x256_0_256 : S16x512.Slices ![0, 256] S16x256
  bcast_S_S16x256 : S_.BroadcastsInDim S16x256 (![] : Fin 0 → Fin S16x256.rank)
  inb_S16x256_S16x256_0_0 : ∀ a, (![0, 0] : Fin 2 → Nat) a + S16x256.size a ≤ S16x256.size a
  h_S16x256 : 0 < S16x256.numel
  shapeCasts_S16x256_S16x256 : S16x256.ShapeCasts S16x256
  h_S128x512 : 0 < S128x512.numel
  slices_S128x512_o0_0_S128x256 : S128x512.Slices ![0, 0] S128x256
  slices_S128x512_o0_256_S128x256 : S128x512.Slices ![0, 256] S128x256
  shapeCasts_S16x256_S16x1x256 : S16x256.ShapeCasts S16x1x256
  shapeCasts_S128x256_S1x128x256 : S128x256.ShapeCasts S1x128x256
  broadcasts_S16x1x256_S16x128x256 : S16x1x256.Broadcasts S16x128x256
  broadcasts_S1x128x256_S16x128x256 : S1x128x256.Broadcasts S16x128x256
  reduces_S16x128x256_S16x128 : S16x128x256.Reduces [2] S16x128
  h_S16x128 : 0 < S16x128.numel
  dot_S16x768_S768x18_S16x18_1_0_0_1_n_n_wf : DotDims.WF S16x768 S768x18 S16x18 [1] [0] [0] [1] [] []
  dot_S16x18_S18x256_S16x256_1_0_0_1_n_n_wf : DotDims.WF S16x18 S18x256 S16x256 [1] [0] [0] [1] [] []
  gather_S43234x512_S16x1_S16x512_1_0_n_n_0_1_1512_wf : GatherDims.WF S43234x512 S16x1 S16x512 [1] [0] [] [0] [] 1 ![1, 512]
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x512.size a ≤ S2048x512.size a
  k0_off2_inb : ∀ k0_t1 : Fin k0_t1_loop.trips, ∀ a, (k0_off2 k0_t1) a + S16x128.size a ≤ S16x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S16x256.size a
  hwx0_0 : ∀ i : grid0.Coords, EltTy.bits .f32 = 32 ∨ (Rect.block (s := S16x256) S16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x512.size a < S43234x512.size a
  hwx0_2 : ∀ i : grid0.Coords, EltTy.bits .f32 = 32 ∨ (Rect.unit (s := S43234x512) (fun a => cc0_transform_2 i a * S2048x512.size a) (fun a => (Pipeline.Clip.of (cc0_transform_2 i a) (S2048x512.size a) (S43234x512.size a)).extent (S2048x512.size a)) fun a => Pipeline.Clip.inb (Pipeline.Clip.ok_of (hstart0_2 i a))).WholeWords (EltTy.packing .f32)
  hwxs0_2 : ∀ i : grid0.Coords, EltTy.bits .f32 = 32 ∨ (Rect.unit (s := S2048x512) (fun _ => 0) (fun a => (Pipeline.Clip.of (cc0_transform_2 i a) (S2048x512.size a) (S43234x512.size a)).extent (S2048x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S16x2048.size a < S16x43234.size a
  hwx0_3 : ∀ i : grid0.Coords, EltTy.bits .f32 = 32 ∨ (Rect.unit (s := S16x43234) (fun a => cc0_transform_3 i a * S16x2048.size a) (fun a => (Pipeline.Clip.of (cc0_transform_3 i a) (S16x2048.size a) (S16x43234.size a)).extent (S16x2048.size a)) fun a => Pipeline.Clip.inb (Pipeline.Clip.ok_of (hstart0_3 i a))).WholeWords (EltTy.packing .f32)
  hwxs0_3 : ∀ i : grid0.Coords, EltTy.bits .f32 = 32 ∨ (Rect.unit (s := S16x2048) (fun _ => 0) (fun a => (Pipeline.Clip.of (cc0_transform_3 i a) (S16x2048.size a) (S16x43234.size a)).extent (S16x2048.size a)) fun a => (Nat.zero_add _).trans_le (Pipeline.Clip.extent_le (Pipeline.Clip.ok_of (hstart0_3 i a)))).WholeWords (EltTy.packing .f32)

variable [Facts₀]

def dot_S16x768_S768x18_S16x18_1_0_0_1_n_n : DotDims S16x768 S768x18 S16x18 where
  lhsContracting := [1]
  rhsContracting := [0]
  lhsNonContracting := [0]
  rhsNonContracting := [1]
  lhsBatch := []
  rhsBatch := []
  wf := dot_S16x768_S768x18_S16x18_1_0_0_1_n_n_wf
def dot_S16x18_S18x256_S16x256_1_0_0_1_n_n : DotDims S16x18 S18x256 S16x256 where
  lhsContracting := [1]
  rhsContracting := [0]
  lhsNonContracting := [0]
  rhsNonContracting := [1]
  lhsBatch := []
  rhsBatch := []
  wf := dot_S16x18_S18x256_S16x256_1_0_0_1_n_n_wf
def gather_S43234x512_S16x1_S16x512_1_0_n_n_0_1_1512 : GatherDims S43234x512 S16x1 S16x512 where
  offsetDims := [1]
  collapsedSliceDims := [0]
  operandBatchingDims := []
  startIndicesBatchingDims := []
  startIndexMap := [0]
  indexVectorDim := 1
  sliceSizes := ![1, 512]
  wf := gather_S43234x512_S16x1_S16x512_1_0_n_n_0_1_1512_wf

abbrev win0_0 : Pipeline.Window sig grid0 :=
  Pipeline.Window.ofSpec (Memref.whole main_v24) S16x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v27) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg4) S2048x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v28) S16x2048.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x64x768 : Shape := ⟨3, ![16, 64, 768]⟩
abbrev S18x768 : Shape := ⟨2, ![18, 768]⟩
abbrev S18 : Shape := ⟨1, ![18]⟩
abbrev S18x256 : Shape := ⟨2, ![18, 256]⟩
abbrev S43234x512 : Shape := ⟨2, ![43234, 512]⟩
abbrev S16 : Shape := ⟨1, ![16]⟩
abbrev S_ : Shape := ⟨0, ![]⟩
abbrev S16x768 : Shape := ⟨2, ![16, 768]⟩
abbrev S768x18 : Shape := ⟨2, ![768, 18]⟩
abbrev S16x18 : Shape := ⟨2, ![16, 18]⟩
abbrev S1x18 : Shape := ⟨2, ![1, 18]⟩
abbrev S16x256 : Shape := ⟨2, ![16, 256]⟩
abbrev S16x1 : Shape := ⟨2, ![16, 1]⟩
abbrev S16x512 : Shape := ⟨2, ![16, 512]⟩
abbrev S43234x256 : Shape := ⟨2, ![43234, 256]⟩
abbrev S16x1x256 : Shape := ⟨3, ![16, 1, 256]⟩
abbrev S1x43234x256 : Shape := ⟨3, ![1, 43234, 256]⟩
abbrev S16x43234x256 : Shape := ⟨3, ![16, 43234, 256]⟩
abbrev S16x43234 : Shape := ⟨2, ![16, 43234]⟩

abbrev nBuf : Space → Nat
  | .hbm => 68
  | .vmem => 0
  | .smem => 0
  | _ => 0

abbrev bufTy : (tb : Table) → Fin (tcTables nBuf tb) → BufTy
  | .hbm, ⟨0, _⟩ => ⟨S16x64x768, .f32⟩
  | .hbm, ⟨1, _⟩ => ⟨S18x768, .f32⟩
  | .hbm, ⟨2, _⟩ => ⟨S18, .f32⟩
  | .hbm, ⟨3, _⟩ => ⟨S18x256, .f32⟩
  | .hbm, ⟨4, _⟩ => ⟨S43234x512, .f32⟩
  | .hbm, ⟨5, _⟩ => ⟨S16, .i32⟩
  | .hbm, ⟨6, _⟩ => ⟨S_, .f32⟩
  | .hbm, ⟨7, _⟩ => ⟨S16x768, .f32⟩
  | .hbm, ⟨8, _⟩ => ⟨S_, .f32⟩
  | .hbm, ⟨9, _⟩ => ⟨S16x768, .f32⟩
  | .hbm, ⟨10, _⟩ => ⟨S16x768, .f32⟩
  | .hbm, ⟨11, _⟩ => ⟨S768x18, .f32⟩
  | .hbm, ⟨12, _⟩ => ⟨S16x18, .f32⟩
  | .hbm, ⟨13, _⟩ => ⟨S1x18, .f32⟩
  | .hbm, ⟨14, _⟩ => ⟨S16x18, .f32⟩
  | .hbm, ⟨15, _⟩ => ⟨S16x18, .f32⟩
  | .hbm, ⟨16, _⟩ => ⟨S16x18, .f32⟩
  | .hbm, ⟨17, _⟩ => ⟨S16x18, .f32⟩
  | .hbm, ⟨18, _⟩ => ⟨S_, .f32⟩
  | .hbm, ⟨19, _⟩ => ⟨S16x18, .f32⟩
  | .hbm, ⟨20, _⟩ => ⟨S16x18, .f32⟩
  | .hbm, ⟨21, _⟩ => ⟨S_, .f32⟩
  | .hbm, ⟨22, _⟩ => ⟨S16x18, .f32⟩
  | .hbm, ⟨23, _⟩ => ⟨S16x18, .f32⟩
  | .hbm, ⟨24, _⟩ => ⟨S16x256, .f32⟩
  | .hbm, ⟨25, _⟩ => ⟨S_, .i32⟩
  | .hbm, ⟨26, _⟩ => ⟨S16, .i32⟩
  | .hbm, ⟨27, _⟩ => ⟨S16, .i1⟩
  | .hbm, ⟨28, _⟩ => ⟨S_, .i32⟩
  | .hbm, ⟨29, _⟩ => ⟨S16, .i32⟩
  | .hbm, ⟨30, _⟩ => ⟨S16, .i32⟩
  | .hbm, ⟨31, _⟩ => ⟨S16, .i32⟩
  | .hbm, ⟨32, _⟩ => ⟨S16x1, .i32⟩
  | .hbm, ⟨33, _⟩ => ⟨S16x512, .f32⟩
  | .hbm, ⟨34, _⟩ => ⟨S16x256, .f32⟩
  | .hbm, ⟨35, _⟩ => ⟨S16x256, .f32⟩
  | .hbm, ⟨36, _⟩ => ⟨S_, .f32⟩
  | .hbm, ⟨37, _⟩ => ⟨S16x256, .f32⟩
  | .hbm, ⟨38, _⟩ => ⟨S16x256, .f32⟩
  | .hbm, ⟨39, _⟩ => ⟨S16x256, .f32⟩
  | .hbm, ⟨40, _⟩ => ⟨S16x256, .f32⟩
  | .hbm, ⟨41, _⟩ => ⟨S16x256, .f32⟩
  | .hbm, ⟨42, _⟩ => ⟨S16x256, .f32⟩
  | .hbm, ⟨43, _⟩ => ⟨S16x256, .f32⟩
  | .hbm, ⟨44, _⟩ => ⟨S16x256, .f32⟩
  | .hbm, ⟨45, _⟩ => ⟨S16x256, .f32⟩
  | .hbm, ⟨46, _⟩ => ⟨S16x256, .f32⟩
  | .hbm, ⟨47, _⟩ => ⟨S43234x256, .f32⟩
  | .hbm, ⟨48, _⟩ => ⟨S43234x256, .f32⟩
  | .hbm, ⟨49, _⟩ => ⟨S16x1x256, .f32⟩
  | .hbm, ⟨50, _⟩ => ⟨S1x43234x256, .f32⟩
  | .hbm, ⟨51, _⟩ => ⟨S16x43234x256, .f32⟩
  | .hbm, ⟨52, _⟩ => ⟨S16x43234x256, .f32⟩
  | .hbm, ⟨53, _⟩ => ⟨S16x43234x256, .f32⟩
  | .hbm, ⟨54, _⟩ => ⟨S16x1x256, .f32⟩
  | .hbm, ⟨55, _⟩ => ⟨S1x43234x256, .f32⟩
  | .hbm, ⟨56, _⟩ => ⟨S16x43234x256, .f32⟩
  | .hbm, ⟨57, _⟩ => ⟨S16x43234x256, .f32⟩
  | .hbm, ⟨58, _⟩ => ⟨S16x43234x256, .f32⟩
  | .hbm, ⟨59, _⟩ => ⟨S16x43234x256, .f32⟩
  | .hbm, ⟨60, _⟩ => ⟨S16x43234x256, .f32⟩
  | .hbm, ⟨61, _⟩ => ⟨S16x43234x256, .f32⟩
  | .hbm, ⟨62, _⟩ => ⟨S16x43234x256, .f32⟩
  | .hbm, ⟨63, _⟩ => ⟨S_, .f32⟩
  | .hbm, ⟨64, _⟩ => ⟨S16x43234, .f32⟩
  | .hbm, ⟨65, _⟩ => ⟨S_, .f32⟩
  | .hbm, ⟨66, _⟩ => ⟨S16x43234, .f32⟩
  | .hbm, ⟨67, _⟩ => ⟨S16x43234, .f32⟩
  | _, _ => ⟨S16x64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]

class Facts₀ : Prop where
  reducesTo_S16x64x768_S16x768_d1 : S16x64x768.ReducesTo [1] S16x768
  h_S_ : 0 < S_.numel
  bcast_S_S16x768 : S_.BroadcastsInDim S16x768 (![] : Fin 0 → Fin S16x768.rank)
  transposes_S18x768_S768x18_1_0 : S18x768.Transposes [1, 0] S768x18
  bcast_S18_S1x18_1 : S18.BroadcastsInDim S1x18 (![1] : Fin 1 → Fin S1x18.rank)
  bcast_S1x18_S16x18_0_1 : S1x18.BroadcastsInDim S16x18 (![0, 1] : Fin 2 → Fin S16x18.rank)
  bcast_S_S16x18 : S_.BroadcastsInDim S16x18 (![] : Fin 0 → Fin S16x18.rank)
  bcast_S_S16 : S_.BroadcastsInDim S16 (![] : Fin 0 → Fin S16.rank)
  bcast_S16_S16x1_0 : S16.BroadcastsInDim S16x1 (![0] : Fin 1 → Fin S16x1.rank)
  slices_S16x512_S16x256_0_0 : S16x512.Slices ![0, 0] S16x256
  slices_S16x512_S16x256_0_256 : S16x512.Slices ![0, 256] S16x256
  bcast_S_S16x256 : S_.BroadcastsInDim S16x256 (![] : Fin 0 → Fin S16x256.rank)
  slices_S43234x512_S43234x256_0_0 : S43234x512.Slices ![0, 0] S43234x256
  slices_S43234x512_S43234x256_0_256 : S43234x512.Slices ![0, 256] S43234x256
  bcast_S16x256_S16x1x256_0_2 : S16x256.BroadcastsInDim S16x1x256 (![0, 2] : Fin 2 → Fin S16x1x256.rank)
  bcast_S43234x256_S1x43234x256_1_2 : S43234x256.BroadcastsInDim S1x43234x256 (![1, 2] : Fin 2 → Fin S1x43234x256.rank)
  bcast_S16x1x256_S16x43234x256_0_1_2 : S16x1x256.BroadcastsInDim S16x43234x256 (![0, 1, 2] : Fin 3 → Fin S16x43234x256.rank)
  bcast_S1x43234x256_S16x43234x256_0_1_2 : S1x43234x256.BroadcastsInDim S16x43234x256 (![0, 1, 2] : Fin 3 → Fin S16x43234x256.rank)
  reducesTo_S16x43234x256_S16x43234_d2 : S16x43234x256.ReducesTo [2] S16x43234
  bcast_S_S16x43234 : S_.BroadcastsInDim S16x43234 (![] : Fin 0 → Fin S16x43234.rank)
  dot_S16x768_S768x18_S16x18_1_0_0_1_n_n_wf : DotDims.WF S16x768 S768x18 S16x18 [1] [0] [0] [1] [] []
  dot_S16x18_S18x256_S16x256_1_0_0_1_n_n_wf : DotDims.WF S16x18 S18x256 S16x256 [1] [0] [0] [1] [] []
  gather_S43234x512_S16x1_S16x512_1_0_n_n_0_1_1512_wf : GatherDims.WF S43234x512 S16x1 S16x512 [1] [0] [] [0] [] 1 ![1, 512]

variable [Facts₀]

def dot_S16x768_S768x18_S16x18_1_0_0_1_n_n : DotDims S16x768 S768x18 S16x18 where
  lhsContracting := [1]
  rhsContracting := [0]
  lhsNonContracting := [0]
  rhsNonContracting := [1]
  lhsBatch := []
  rhsBatch := []
  wf := dot_S16x768_S768x18_S16x18_1_0_0_1_n_n_wf
def dot_S16x18_S18x256_S16x256_1_0_0_1_n_n : DotDims S16x18 S18x256 S16x256 where
  lhsContracting := [1]
  rhsContracting := [0]
  lhsNonContracting := [0]
  rhsNonContracting := [1]
  lhsBatch := []
  rhsBatch := []
  wf := dot_S16x18_S18x256_S16x256_1_0_0_1_n_n_wf
def gather_S43234x512_S16x1_S16x512_1_0_n_n_0_1_1512 : GatherDims S43234x512 S16x1 S16x512 where
  offsetDims := [1]
  collapsedSliceDims := [0]
  operandBatchingDims := []
  startIndicesBatchingDims := []
  startIndexMap := [0]
  indexVectorDim := 1
  sliceSizes := ![1, 512]
  wf := gather_S43234x512_S16x1_S16x512_1_0_n_n_0_1_1512_wf

class Facts : Prop extends Facts₀ where

variable [Facts]
-- ==== Proof.RunK.lean ====
/-
  The kernel body on any whole staging memrefs: the two resident head blocks and the streamed entity block are read,
  the output block is written slab by slab by the counted loop.
-/
import proofs.«422263_j11063835754873_2_alg».proof.Proof.Gen.Kernel.Launch
import proofs.«422263_j11063835754873_2_alg».proof.Proof.Gen.Kernel.Skeleton
import proofs.«422263_j11063835754873_2_alg».proof.Proof.Gen.Kernel.Loops
import proofs.«422263_j11063835754873_2_alg».proof.Proof.Gen.Kernel.Points
import proofs.«422263_j11063835754873_2_alg».proof.Proof.Gen.Kernel.Frame
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

set_option maxHeartbeats 1000000 in
/-- What the body's stores leave in the output's staging memref, as pieces (last first), with the proof that on whole
    staging memrefs — the two head blocks and the entity block at their contents, the output's at anything — the
    body runs to the continuation holding the inputs as they were and the output's buffer with those pieces
    written: two whole loads, then the counted loop by its invariant (sixteen trips, one 16 × 128 slab each). -/
noncomputable def kernelRun (c : Dev nD) (i : grid0.Coords) (arg1 : Memref sig .tc .vmem S16x256 .f32) (harg1 : arg1.IsWhole)
    (arg2 : Memref sig .tc .vmem S16x256 .f32) (harg2 : arg2.IsWhole) (arg3 : Memref sig .tc .vmem S2048x512 .f32) (harg3 : arg3.IsWhole)
    (arg4 : Memref sig .tc .vmem S16x2048 .f32) (harg4 : arg4.IsWhole)
    (x0 x1 : Vec F S16x256 .f32) (x2 : Vec F S2048x512 .f32) :
    { L : List (View.Piece (Elt F) S16x2048 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ (∃ d, owns (c : Thread nD τ) arg4 fullShare d)
            ∗ (iprop(owns (c : Thread nD τ) arg1 fullShare x0 ∗ owns (c : Thread nD τ) arg2 fullShare x1
                ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E (cc0__dist_kernel i arg1 harg1 arg2 harg2 arg3 harg3 arg4 harg4) K } := by
  refine ⟨?_, fun E K => ?run⟩
  case run =>
    simp only [cc0__dist_kernel_eq_skeleton]; unfold cc0__dist_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0
    obtain rfl := harg2.eq_unread hf1
    obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Body

end
-- ==== Proof.FrameK.lean ====
/-
  The frame of the printed kernel program: it runs to the end, faults nowhere, and leaves its six argument arrays
  unchanged. Nothing is said here of what the output holds, so the proof data is relational: the body hands each
  input's staging buffer back as it found it, and the output's at any contents.
-/
import proofs.«422263_j11063835754873_2_alg».proof.Proof.RunK
import Idealize.ShloMosaic.Lib.Pipeline.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data of the one pipeline on core `c`: the arrays as the region finds them; the body leaves
    each input's staging buffer as it was handed it and the output's at anything; the class's invariant; nothing
    owed; full shares. -/
def rdat (c : Dev nD) : RDat τ (Elt F) Unit ℕ (UR sig nD τ) ℕ cfg0 c where
  A w := V m c (Pipeline.arrRef spec0 w)
  after w _t Y X := match w with
    | ⟨0, _⟩ => X = Y
    | ⟨1, _⟩ => X = Y
    | ⟨2, _⟩ => X = Y
    | ⟨3, _⟩ => True
  Φ _ := Pipeline.ΦA spec0 c
  q _ := fullShare
  owed _ := 0

/-- The body obligation: whatever the four staging buffers hold, the body runs, leaves the three inputs' buffers as
    they were and the output's at what its stores wrote. -/
theorem body_obligationR (c : Dev nD) : (rdat m c).BodyObligation (defs₀ (F := F)) Variants.none () Set.univ := fun t Y _ => by
  rw [bigSep_W0, bigSep_W0]
  show _ ⊢ wp frame (wpE (defs₀ (F := F)) Variants.none c none) Set.univ (bodyAt0 t) _
  rw [show (rdat m c).Φ t.succ = (rdat m c).Φ t.castSucc from rfl,
    show (rdat m c).owesAt () t.succ = (rdat m c).owesAt () t.castSucc from rfl]
  unfold bodyAt0
  iintro ⟨HΦ, Ho, H0, H1, H2, H3⟩
  iapply ((kernelRun (F := F) c (grid0.coords t) _ _ _ _ _ _ _ _ (Y 0) (Y 1) (Y 2)).2 Set.univ _)
  isplitl [H0]; · iexact H0
  isplitl [H1]; · iexact H1
  isplitl [H2]; · iexact H2
  isplitl [H3]; · iexists _; iexact H3
  iintro ⟨H0, H1, H2, ⟨%f, H3⟩⟩
  isplitl [HΦ]; · iexact HΦ
  isplitl [Ho]; · iexact Ho
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  · iexists _; isplitr
    swap
    · unfold owns; iexists _; isplitr
      swap; · iexact H3
      ipureintro; rfl
    · ipureintro; trivial

set_option backward.isDefEq.respectTransparency.types false in
/-- At the compiled mesh, for any values, from any memory with zero counters: every weakly fair execution of @main
    terminates, every windowed array ends at contents the relational data admits and every other unscoped buffer as
    the region found it. -/
theorem run_mainR : θ_run defs (onTc (τ := τ) (main (F := F))) (s₀ m ρ) (RDat.FramePost cfg0 (rdat m) (V m)) :=
  Pipeline.RDat.θ_run_frame cfgs (0 : Fin 1) launch0 defs₀ Variants.none (rdat m) m ρ main
    (hbody := body_obligationR m) (hshare := fun c w => by unfold RDat.share; split <;> rfl)
    (howed := fun _ _ => rfl) (V := V m) (hmain := hmain m Variants.none) (hA := fun _ _ => rfl) (hΦ := fun _ _ => rfl)

/-- THE FRAME: the six argument arrays end as they were launched — the entity table, the one argument a window
    stages, because an input array is never written; the other five because no window touches them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    have h4 : r.2.mem ((c.tc : Thread nD τ).loc main_arg4) = (rdat m c).A 2 := by
      have h2 := (h c).1 2
      rw [(rdat m c).ArrAt_in 2 rfl] at h2
      exact h2
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      h4.trans (V_main_arg4 m c),
      ((h c).2 main_arg5 (Pipeline.mem_restRefs_of main_arg5 (by decide) (by decide))).trans (V_main_arg5 m c)⟩)
    (run_mainR m ρ)

end Cert.Kernel.Body

end
-- ==== Proof.RunI.lean ====
/-
  The kernel body on any whole staging memrefs: the two resident head blocks and the streamed entity block are read,
  the output block is written slab by slab by the counted loop.
-/
import proofs.«422263_j11063835754873_2_alg».proof.Proof.Gen.KernelIdeal.Launch
import proofs.«422263_j11063835754873_2_alg».proof.Proof.Gen.KernelIdeal.Skeleton
import proofs.«422263_j11063835754873_2_alg».proof.Proof.Gen.KernelIdeal.Loops
import proofs.«422263_j11063835754873_2_alg».proof.Proof.Gen.KernelIdeal.Points
import proofs.«422263_j11063835754873_2_alg».proof.Proof.Gen.KernelIdeal.Frame
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

set_option maxHeartbeats 1000000 in
/-- What the body's stores leave in the output's staging memref, as pieces (last first), with the proof that on whole
    staging memrefs — the two head blocks and the entity block at their contents, the output's at anything — the
    body runs to the continuation holding the inputs as they were and the output's buffer with those pieces
    written: two whole loads, then the counted loop by its invariant (sixteen trips, one 16 × 128 slab each). -/
noncomputable def kernelRun (c : Dev nD) (i : grid0.Coords) (arg1 : Memref sig .tc .vmem S16x256 .f32) (harg1 : arg1.IsWhole)
    (arg2 : Memref sig .tc .vmem S16x256 .f32) (harg2 : arg2.IsWhole) (arg3 : Memref sig .tc .vmem S2048x512 .f32) (harg3 : arg3.IsWhole)
    (arg4 : Memref sig .tc .vmem S16x2048 .f32) (harg4 : arg4.IsWhole)
    (x0 x1 : Vec F S16x256 .f32) (x2 : Vec F S2048x512 .f32) :
    { L : List (View.Piece (Elt F) S16x2048 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ (∃ d, owns (c : Thread nD τ) arg4 fullShare d)
            ∗ (iprop(owns (c : Thread nD τ) arg1 fullShare x0 ∗ owns (c : Thread nD τ) arg2 fullShare x1
                ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E (cc0__dist_kernel i arg1 harg1 arg2 harg2 arg3 harg3 arg4 harg4) K } := by
  refine ⟨?_, fun E K => ?run⟩
  case run =>
    simp only [cc0__dist_kernel_eq_skeleton]; unfold cc0__dist_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0
    obtain rfl := harg2.eq_unread hf1
    obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Body

end
-- ==== Proof.SlabI.lean ====
/-
  What the body leaves in the output's staging buffer, as ONE function of the three input blocks: the sixteen trips
  store sixteen 16 × 128 slabs that tile the 16 × 2048 block, and the slab of trip `k` is the payload of rows
  `128k … 128k + 127` of the entity block. So column `y` of the output depends on row `y` of the entity block only.
-/
import proofs.«422263_j11063835754873_2_alg».proof.Proof.RunI

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

/-! ## The trip's one piece, and the slab function the pieces tile -/

/-- One trip stores, at columns `128k … 128k + 127`, the payload of rows `128k … 128k + 127` of the entity block. -/
theorem tripL_eq (𝒱 : Variants) (c : Dev nD) (bd : Option 𝒱.V) (i : grid0.Coords) (arg1 : Memref sig .tc .vmem S16x256 .f32) (harg1 : arg1.IsWhole)
    (arg2 : Memref sig .tc .vmem S16x256 .f32) (harg2 : arg2.IsWhole) (arg3 : Memref sig .tc .vmem S2048x512 .f32) (harg3 : arg3.IsWhole)
    (arg4 : Memref sig .tc .vmem S16x2048 .f32) (harg4 : arg4.IsWhole)
    (v0 v2 : Vec F S16x256 .f32) (X : BufTy.Contents (Elt F) arg3.view.ty) (k : Fin k0_t1_loop.trips) :
    tripL_k0_t1 (F := F) 𝒱 c bd i arg1 harg1 arg2 harg2 arg3 harg3 arg4 harg4 v0 v2 X k
      = [⟨Rect.unit (s := S16x2048) (k0_off2 k) S16x128.size (k0_off2_inb k),
          k0_pay1 v0 v2 (arg3.view.readAt (Elt F) (Rect.unit (s := S2048x512) (k0_off1 k) S128x512.size (k0_off1_inb k)).toLoadRect X)⟩] := by
  unfold tripL_k0_t1 trip_k0_t1; rfl

/-- Rows `128k … 128k + 127` of a staged entity block. -/
def chunk (X : Vec F S2048x512 .f32) (k : Fin 16) : Vec F S128x512 .f32 :=
  fun z => X (ValueIdx.ix2 (n0 := 2048) (n1 := 512)
    ⟨128 * k.val + (z 0).val, by have h0 := ValueIdx.idx2_lt0 z; have hk := k.isLt; omega⟩ ⟨(z 1).val, ValueIdx.idx2_lt1 z⟩)

/-- The whole 16 × 2048 output block as ONE function of the two head blocks and the staged entity block: column `y`
    of row `b` is the payload of the chunk that holds entity row `y`, at `(b, y mod 128)`. -/
def outBlk (v0 v2 : Vec F S16x256 .f32) (X : Vec F S2048x512 .f32) : Vec F S16x2048 .f32 :=
  fun y => k0_pay1 v0 v2 (chunk X ⟨(y 1).val / 128, by have h1 := ValueIdx.idx2_lt1 y; omega⟩)
    (ValueIdx.ix2 (n0 := 16) (n1 := 128) ⟨(y 0).val, ValueIdx.idx2_lt0 y⟩ ⟨(y 1).val % 128, Nat.mod_lt _ (by decide)⟩)

/-- A whole load of a whole memref reads its contents. -/
theorem readAt_whole_unread {S : Shape} {e : EltTy} (arg : Memref sig .tc .vmem S e) (harg : arg.IsWhole) (x : Vec F S e)
    {off : Fin S.rank → Nat} (hz : off = fun _ => 0) (inb : ∀ a, off a + S.size a ≤ S.size a) :
    arg.view.readAt (Elt F) (Rect.unit (s := S) off S.size inb).toLoadRect (harg.unread x) = x := by
  rw [View.readAt_eq_ld, harg.read_unread, View.ld_unit_zero hz]

/-- A trip's payload is the slab function on the trip's columns. -/
theorem piece_eq (v0 v2 : Vec F S16x256 .f32) (arg3 : Memref sig .tc .vmem S2048x512 .f32) (harg3 : arg3.IsWhole)
    (x2 : Vec F S2048x512 .f32) (k : Fin k0_t1_loop.trips) (x : S16x128.Idx) :
    k0_pay1 v0 v2 (arg3.view.readAt (Elt F) (Rect.unit (s := S2048x512) (k0_off1 k) S128x512.size (k0_off1_inb k)).toLoadRect (harg3.unread x2)) x
      = outBlk v0 v2 x2 ((Rect.unit (s := S16x2048) (k0_off2 k) S16x128.size (k0_off2_inb k)).emb x) := by
  have hk : k.val < 16 := Nat.lt_of_lt_of_le k.isLt k0_t1_abs.2.1
  have hx0 := ValueIdx.idx2_lt0 x
  have hx1 := ValueIdx.idx2_lt1 x
  have e0 : (((Rect.unit (s := S16x2048) (k0_off2 k) S16x128.size (k0_off2_inb k)).emb x) 0 : Nat) = (x 0).val := by
    rw [Rect.emb_apply]; show k0_off2 k 0 + 1 * (x 0).val = _; rw [k0_off2_eq]; show 0 + 1 * (x 0).val = _; omega
  have e1 : (((Rect.unit (s := S16x2048) (k0_off2 k) S16x128.size (k0_off2_inb k)).emb x) 1 : Nat) = 128 * k.val + (x 1).val := by
    rw [Rect.emb_apply]; show k0_off2 k 1 + 1 * (x 1).val = _; rw [k0_off2_eq]; show 128 * k.val + 1 * (x 1).val = _; omega
  have q0 : k0_off1 k 0 = 128 * k.val := by rw [k0_off1_eq]; rfl
  have q1 : k0_off1 k 1 = 0 := by rw [k0_off1_eq]; rfl
  unfold outBlk
  refine congrArg₂ (fun A z => k0_pay1 v0 v2 A z) (funext fun z => ?_) (funext fun a => Fin.ext ?_)
  · have hz0 := ValueIdx.idx2_lt0 z
    rw [View.readAt_eq_ld, harg3.read_unread]
    show x2 _ = x2 _
    refine congrArg x2 (funext fun a => Fin.ext ?_)
    match a with
    | ⟨0, _⟩ =>
      show k0_off1 k 0 + 1 * (z 0).val = 128 * ((((Rect.unit (s := S16x2048) (k0_off2 k) S16x128.size (k0_off2_inb k)).emb x) 1 : Nat) / 128) + (z 0).val
      rw [e1]; omega
    | ⟨1, _⟩ =>
      show k0_off1 k 1 + 1 * (z 1).val = (z 1).val
      omega
  · match a with
    | ⟨0, _⟩ => exact e0.symm
    | ⟨1, _⟩ =>
      show (x 1).val = (((Rect.unit (s := S16x2048) (k0_off2 k) S16x128.size (k0_off2_inb k)).emb x) 1 : Nat) % 128
      rw [e1]; omega

/-- Every piece of the trips before `n` is the slab function on its rectangle. -/
theorem pieces_eq (𝒱 : Variants) (c : Dev nD) (bd : Option 𝒱.V) (i : grid0.Coords) (arg1 : Memref sig .tc .vmem S16x256 .f32) (harg1 : arg1.IsWhole)
    (arg2 : Memref sig .tc .vmem S16x256 .f32) (harg2 : arg2.IsWhole) (arg3 : Memref sig .tc .vmem S2048x512 .f32) (harg3 : arg3.IsWhole)
    (arg4 : Memref sig .tc .vmem S16x2048 .f32) (harg4 : arg4.IsWhole)
    (v0 v2 : Vec F S16x256 .f32) (x2 : Vec F S2048x512 .f32) :
    ∀ (n : ℕ), ∀ p ∈ pb_k0_t1 (F := F) 𝒱 c bd i arg1 harg1 arg2 harg2 arg3 harg3 arg4 harg4 v0 v2 (harg3.unread x2) n,
      ∀ x : p.1.shape.Idx, p.2 x = outBlk v0 v2 x2 (p.1.emb x)
  | 0 => fun p hp => absurd hp (by rw [pb_k0_t1.eq_1]; exact List.not_mem_nil)
  | n + 1 => fun p hp x => by
    rw [pb_k0_t1.eq_2] at hp; unfold pb_k0_t1Step at hp
    split at hp
    · rename_i h
      rcases List.mem_append.mp hp with hp | hp
      · rw [tripL_eq] at hp
        obtain rfl := List.mem_singleton.mp hp
        exact piece_eq v0 v2 arg3 harg3 x2 ⟨n, h⟩ x
      · exact pieces_eq 𝒱 c bd i arg1 harg1 arg2 harg2 arg3 harg3 arg4 harg4 v0 v2 x2 n p hp x
    · exact pieces_eq 𝒱 c bd i arg1 harg1 arg2 harg2 arg3 harg3 arg4 harg4 v0 v2 x2 n p hp x

/-- The run's pieces are those of all sixteen trips, over the two head blocks as loaded. -/
theorem run_pieces (c : Dev nD) (i : grid0.Coords) (arg1 : Memref sig .tc .vmem S16x256 .f32) (harg1 : arg1.IsWhole)
    (arg2 : Memref sig .tc .vmem S16x256 .f32) (harg2 : arg2.IsWhole) (arg3 : Memref sig .tc .vmem S2048x512 .f32) (harg3 : arg3.IsWhole)
    (arg4 : Memref sig .tc .vmem S16x2048 .f32) (harg4 : arg4.IsWhole) (x0 x1 : Vec F S16x256 .f32) (x2 : Vec F S2048x512 .f32) :
    (kernelRun (F := F) c i arg1 harg1 arg2 harg2 arg3 harg3 arg4 harg4 x0 x1 x2).1
      = pb_k0_t1 (F := F) Variants.none c none i arg1 harg1 arg2 harg2 arg3 harg3 arg4 harg4 x0 x1 (harg3.unread x2) (Scf.trips k0_t1_loop.lb k0_t1_loop.ub k0_t1_loop.st) := by
  have hz : (![0, 0] : Fin 2 → Nat) = fun _ => 0 := funext fun a => by fin_cases a <;> rfl
  unfold kernelRun
  dsimp only
  rw [readAt_whole_unread arg1 harg1 x0 hz, readAt_whole_unread arg2 harg2 x1 hz]

/-- The sixteen slabs tile the block. -/
theorem run_cover (c : Dev nD) (i : grid0.Coords) (arg1 : Memref sig .tc .vmem S16x256 .f32) (harg1 : arg1.IsWhole)
    (arg2 : Memref sig .tc .vmem S16x256 .f32) (harg2 : arg2.IsWhole) (arg3 : Memref sig .tc .vmem S2048x512 .f32) (harg3 : arg3.IsWhole)
    (arg4 : Memref sig .tc .vmem S16x2048 .f32) (harg4 : arg4.IsWhole) (x0 x1 : Vec F S16x256 .f32) (x2 : Vec F S2048x512 .f32)
    (y : S16x2048.Idx) : ∃ pc ∈ (kernelRun (F := F) c i arg1 harg1 arg2 harg2 arg3 harg3 arg4 harg4 x0 x1 x2).1, y ∈ pc.1.set :=
  View.cover_of_tiledL (kernelRun (F := F) c i arg1 harg1 arg2 harg2 arg3 harg3 arg4 harg4 x0 x1 x2).1 S16x128.size (by sl_kernel_rfl) y

/-- What the body leaves in the output's staging buffer, whatever it held: the slab function of the three input
    blocks. -/
theorem read_run (c : Dev nD) (i : grid0.Coords) (arg1 : Memref sig .tc .vmem S16x256 .f32) (harg1 : arg1.IsWhole)
    (arg2 : Memref sig .tc .vmem S16x256 .f32) (harg2 : arg2.IsWhole) (arg3 : Memref sig .tc .vmem S2048x512 .f32) (harg3 : arg3.IsWhole)
    (arg4 : Memref sig .tc .vmem S16x2048 .f32) (harg4 : arg4.IsWhole) (x0 x1 : Vec F S16x256 .f32) (x2 : Vec F S2048x512 .f32)
    (f : BufTy.Contents (Elt F) arg4.view.ty) :
    arg4.view.read (Elt F) (arg4.view.writes (Elt F) f (kernelRun (F := F) c i arg1 harg1 arg2 harg2 arg3 harg3 arg4 harg4 x0 x1 x2).1) = outBlk x0 x1 x2 := by
  rw [View.read_writes_eq_canon _ _ _ (run_cover c i arg1 harg1 arg2 harg2 arg3 harg3 arg4 harg4 x0 x1 x2)]
  funext y
  refine View.canon_apply_of_pieces (outBlk x0 x1 x2) _ ?_ y (run_cover c i arg1 harg1 arg2 harg2 arg3 harg3 arg4 harg4 x0 x1 x2 y)
  rw [run_pieces]
  exact pieces_eq Variants.none c none i arg1 harg1 arg2 harg2 arg3 harg3 arg4 harg4 x0 x1 x2 _

end Cert.KernelIdeal.Body

end
-- ==== Proof.Spec.lean ====
/-
  The common value of the two programs, at one output element.

  Row `b` of the rotated head is a pair of vectors `p, q : Fin 256 → EReal` (its real and imaginary halves), an entity
  is one row `r : Fin 512 → EReal` of the embedding table (real half in columns 0‥255, imaginary half in 256‥511), and
  the score of the pair is `6 − ∑ₖ √((pₖ − rₖ)² + (qₖ − r₂₅₆₊ₖ)²)` on the extended reals. Both programs compute
  exactly this, element by element: no algebraic law is needed to join them, only the reading of each side's
  layout operations at an index.
-/
import Idealize.ShloMosaic.PureOps.Ideal
import Idealize.ShloMosaic.Lib.ValueIdx

noncomputable section

open scoped BigOperators

namespace Cert.Spec

open Idealize.ShloMosaic Idealize.ShloMosaic.ValueIdx

/-- Column `k` of an entity row's real half. -/
abbrev lo (k : Fin 256) : Fin 512 := ⟨k.val, by have := k.isLt; omega⟩
/-- Column `k` of an entity row's imaginary half. -/
abbrev hi (k : Fin 256) : Fin 512 := ⟨256 + k.val, by have := k.isLt; omega⟩

/-- The score of a rotated head row `(p, q)` against an entity row `r`: the margin `6` less the sum over the 256
    complex coordinates of the modulus of the difference. -/
def rowDist (p q : Fin 256 → EReal) (r : Fin 512 → EReal) : EReal :=
  Ideal.ofBits .f32 0x40C00000#32
    - ∑ k : Fin 256, Ideal.sqrt ((p k - r (lo k)) * (p k - r (lo k)) + (q k - r (hi k)) * (q k - r (hi k)))

/-- The whole score table `[16, 43234]` from the rotated head's halves `rr, ri : [16, 256]` and the entity table
    `ent : [43234, 512]`. -/
def dist (rr ri : (⟨2, ![16, 256]⟩ : Shape).Idx → EReal) (ent : (⟨2, ![43234, 512]⟩ : Shape).Idx → EReal) :
    (⟨2, ![16, 43234]⟩ : Shape).Idx → EReal :=
  fun i => rowDist (fun k => rr (ix2 (n0 := 16) (n1 := 256) ⟨(i 0).val, (i 0).isLt⟩ k))
    (fun k => ri (ix2 (n0 := 16) (n1 := 256) ⟨(i 0).val, (i 0).isLt⟩ k))
    (fun l => ent (ix2 (n0 := 43234) (n1 := 512) ⟨(i 1).val, (i 1).isLt⟩ l))

end Cert.Spec

end
-- ==== Proof.Payload.lean ====
/-
  The kernel body's one payload read at an index: column `j` of row `b` of the 16 × 128 slab a trip stores is the
  score (`Spec.rowDist`) of row `b` of the two resident head blocks against row `j` of the trip's 128 × 512 chunk.
-/
import proofs.«422263_j11063835754873_2_alg».proof.Proof.Gen.KernelIdeal.Skeleton
import proofs.«422263_j11063835754873_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Payload

open Idealize.ShloMosaic Idealize.ShloMosaic.ValueIdx Cert.KernelIdeal Cert.KernelIdeal.Gen

variable {α : Type}

/-- A `[16, 256]` array seen as `[16, 1, 256]` reads, at `(b, u, k)`, the operand at `(b, k)`. -/
private theorem cast_mid (x : (⟨2, ![16, 256]⟩ : Shape).Idx → α)
    (h : (⟨2, ![16, 256]⟩ : Shape).ShapeCasts ⟨3, ![16, 1, 256]⟩) (b : Fin 16) (u : Fin 1) (k : Fin 256) :
    shapeCast ⟨3, ![16, 1, 256]⟩ x h (ix3 b u k) = x (ix2 b k) :=
  shapeCast_apply x h _ _ (by
    have hu : u.val = 0 := by omega
    rw [Shape.rowMajor_val_two, Shape.rowMajor_val_three]
    show b.val * 256 + k.val = (b.val * 1 + u.val) * 256 + k.val
    rw [hu]; omega)

/-- The `[16, 1, 256]` array repeated along its unit axis reads, at `(b, j, k)`, the operand at `(b, 0, k)`. -/
private theorem bcast_mid (x : (⟨3, ![16, 1, 256]⟩ : Shape).Idx → α)
    (h : (⟨3, ![16, 1, 256]⟩ : Shape).Broadcasts ⟨3, ![16, 128, 256]⟩) (b : Fin 16) (j : Fin 128) (k : Fin 256) :
    broadcastTo ⟨3, ![16, 128, 256]⟩ x h (ix3 b j k) = x (ix3 b (0 : Fin 1) k) :=
  broadcastTo_apply x h _ _ (fun a => match a with
    | ⟨0, _⟩ => rfl
    | ⟨1, _⟩ => rfl
    | ⟨2, _⟩ => rfl)

/-- The `[1, 128, 256]` array repeated along its unit axis reads, at `(b, j, k)`, the operand at `(0, j, k)`. -/
private theorem bcast_lead (x : (⟨3, ![1, 128, 256]⟩ : Shape).Idx → α)
    (h : (⟨3, ![1, 128, 256]⟩ : Shape).Broadcasts ⟨3, ![16, 128, 256]⟩) (b : Fin 16) (j : Fin 128) (k : Fin 256) :
    broadcastTo ⟨3, ![16, 128, 256]⟩ x h (ix3 b j k) = x (ix3 (0 : Fin 1) j k) :=
  broadcastTo_apply x h _ _ (fun a => match a with
    | ⟨0, _⟩ => rfl
    | ⟨1, _⟩ => rfl
    | ⟨2, _⟩ => rfl)

/-- The left half of a `[128, 512]` array reads, at `(j, k)`, the operand at `(j, k)`. -/
private theorem slice_lo (x : (⟨2, ![128, 512]⟩ : Shape).Idx → α)
    (h : (⟨2, ![128, 512]⟩ : Shape).Slices ![0, 0] ⟨2, ![128, 256]⟩) (j : Fin 128) (k : Fin 256) :
    extractStridedSlice ⟨2, ![128, 256]⟩ ![0, 0] x h (ix2 j k) = x (ix2 j (Cert.Spec.lo k)) :=
  extractStridedSlice_apply _ x h _ _ (fun a => match a with
    | ⟨0, _⟩ => by show j.val = 0 + j.val; omega
    | ⟨1, _⟩ => by show k.val = 0 + k.val; omega)

/-- The right half of a `[128, 512]` array reads, at `(j, k)`, the operand at `(j, 256 + k)`. -/
private theorem slice_hi (x : (⟨2, ![128, 512]⟩ : Shape).Idx → α)
    (h : (⟨2, ![128, 512]⟩ : Shape).Slices ![0, 256] ⟨2, ![128, 256]⟩) (j : Fin 128) (k : Fin 256) :
    extractStridedSlice ⟨2, ![128, 256]⟩ ![0, 256] x h (ix2 j k) = x (ix2 j (Cert.Spec.hi k)) :=
  extractStridedSlice_apply _ x h _ _ (fun a => match a with
    | ⟨0, _⟩ => by show j.val = 0 + j.val; omega
    | ⟨1, _⟩ => by show 256 + k.val = 256 + k.val; omega)

/-- A head block, cast and repeated over the chunk's rows, reads at `(b, j, k)` the block at `(b, k)`. -/
private theorem head_apply (x : Vec Ideal S16x256 .f32) (b : Fin 16) (j : Fin 128) (k : Fin 256) :
    broadcastTo S16x128x256
        (shapeCast S16x1x256 (shapeCast S16x256 x shapeCasts_S16x256_S16x256) shapeCasts_S16x256_S16x1x256)
        broadcasts_S16x1x256_S16x128x256 (ix3 b j k) = x (ix2 b k) :=
  (bcast_mid _ _ b j k).trans
    ((cast_mid _ _ b 0 k).trans (congrFun (shapeCast_self x shapeCasts_S16x256_S16x256) (ix2 b k)))

/-- The chunk's real half, cast and repeated over the head's rows, reads at `(b, j, k)` the chunk at `(j, k)`. -/
private theorem ent_lo_apply (x : Vec Ideal S128x512 .f32) (b : Fin 16) (j : Fin 128) (k : Fin 256) :
    broadcastTo S16x128x256
        (shapeCast S1x128x256 (extractStridedSlice S128x256 ![0, 0] x slices_S128x512_o0_0_S128x256)
          shapeCasts_S128x256_S1x128x256)
        broadcasts_S1x128x256_S16x128x256 (ix3 b j k) = x (ix2 j (Cert.Spec.lo k)) :=
  (bcast_lead _ _ b j k).trans ((shapeCast_ab_1ab_apply _ _ 0 j k).trans (slice_lo x _ j k))

/-- The chunk's imaginary half, cast and repeated over the head's rows, reads at `(b, j, k)` the chunk at
    `(j, 256 + k)`. -/
private theorem ent_hi_apply (x : Vec Ideal S128x512 .f32) (b : Fin 16) (j : Fin 128) (k : Fin 256) :
    broadcastTo S16x128x256
        (shapeCast S1x128x256 (extractStridedSlice S128x256 ![0, 256] x slices_S128x512_o0_256_S128x256)
          shapeCasts_S128x256_S1x128x256)
        broadcasts_S1x128x256_S16x128x256 (ix3 b j k) = x (ix2 j (Cert.Spec.hi k)) :=
  (bcast_lead _ _ b j k).trans ((shapeCast_ab_1ab_apply _ _ 0 j k).trans (slice_hi x _ j k))

/-- The reduced index `(b, j)` with lane `k` inserted on the last axis is `(b, j, k)`. -/
private theorem lift_eq (h : S16x128x256.Reduces [2] S16x128) (b : Fin 16) (j : Fin 128) (k : Fin 256) :
    h.lift (ix2 b j) k = ix3 b j k :=
  funext fun a => Fin.ext (by match a with | ⟨0, _⟩ => rfl | ⟨1, _⟩ => rfl | ⟨2, _⟩ => rfl)

/-- The stored slab at `(b, j)`. -/
theorem pay_apply (v0 v2 : Vec Ideal S16x256 .f32) (v8 : Vec Ideal S128x512 .f32) (b : Fin 16) (j : Fin 128) :
    k0_pay1 (F := Ideal) v0 v2 v8 (ix2 b j)
      = Cert.Spec.rowDist (fun k => v0 (ix2 b k)) (fun k => v2 (ix2 b k)) (fun l => v8 (ix2 j l)) := by
  unfold k0_pay1
  -- the margin less the lane sum
  refine (subf_apply _ _ _).trans ?_
  unfold Cert.Spec.rowDist
  refine congrArg₂ (· - ·) rfl ?_
  -- the lane sum, lane by lane
  refine (Ideal.multiReduction_add_single _ _ _ _ _ _).trans ?_
  show ∑ k : Fin 256, _ = _
  refine Finset.sum_congr rfl fun k _ => ?_
  refine (congrArg _ (lift_eq _ b j k)).trans ?_
  -- one lane: the modulus of the difference, each operand read through its layout operations
  have hA := head_apply v0 b j k
  have hC := head_apply v2 b j k
  have hB := ent_lo_apply v8 b j k
  have hD := ent_hi_apply v8 b j k
  exact congrArg Ideal.sqrt
    (congrArg₂ (· + ·)
      (congrArg₂ (· * ·) (congrArg₂ (· - ·) hA hB) (congrArg₂ (· - ·) hA hB))
      (congrArg₂ (· * ·) (congrArg₂ (· - ·) hC hD) (congrArg₂ (· - ·) hC hD)))

end Cert.Payload

end
-- ==== Proof.FrameI.lean ====
/-
  The idealized kernel program at the extended reals: its frame, and what its result array holds after the run —
  the score table (`Spec.dist`) of the two rotated-head blocks the region is launched on and the entity table.

  The entity window's last block overhangs the table (43234 = 21 · 2048 + 226): the fetch fills the staging buffer's
  tail with contents nothing names, the body scores those rows too, and the write-back moves only the 226 columns
  inside the result. Column `y` of the output block depends on row `y` of the entity block alone, so the columns
  written back never see the tail.
-/
import proofs.«422263_j11063835754873_2_alg».proof.Proof.SlabI
import proofs.«422263_j11063835754873_2_alg».proof.Proof.Payload
import proofs.«422263_j11063835754873_2_alg».proof.Proof.Spec
import Idealize.ShloMosaic.Lib.Pipeline.Frame

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The result, and the proof data -/

/-- The score table of the arrays as the region finds them: the rotated head's two halves (the host operations'
    results `%24`, `%27`) against the entity table. -/
def G (c : Dev nD) : S16x43234.Idx → EReal :=
  Cert.Spec.dist (V (F := Ideal) m c main_v24) (V (F := Ideal) m c main_v27) (V (F := Ideal) m c main_arg4)

/-- The proof data of the one pipeline on core `c`: the arrays as the region finds them; after the body the two head
    blocks in place, the entity block in place on the rows inside the table, and the output's buffer at its block of
    the score table on the columns inside the result (zero where the block overhangs: nothing reads it). -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => (0 : EReal)) (iblk m c 2 t)
    | ⟨3, _⟩ => win0_3.fill (grid0.coords t) (fun _ => (0 : EReal)) ((win0_3.blk t).view.read (Elt Ideal) (G m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) :
    (dats m 0 c).after 2 t = win0_2.fill (grid0.coords t) (fun _ => (0 : EReal)) (iblk m c 2 t) := by dsimp only [dats]
theorem after3 (c : Dev nD) (t : Fin cfg0.N) :
    (dats m 0 c).after 3 t
      = win0_3.fill (grid0.coords t) (fun _ => (0 : EReal)) ((win0_3.blk t).view.read (Elt Ideal) (G m c)) := by
  dsimp only [dats]

/-- The result's window is never fetched. -/
theorem fetch0_3 : ∀ t : Fin cfg0.N, (cfg0.win 3).fetch t = false :=
  (by decide +kernel : ∀ t : Fin grid0.N, win0_3.fetch t = false)

/-- What the body finds: the head blocks in place (fetched once, never moved), -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- the entity block just fetched: the table's rows where the block lies inside it, anything past its end, -/
theorem before2 (c : Dev nD) (t : Fin cfg0.N) (d) :
    (dats m 0 c).before 2 t d = win0_2.fill (grid0.coords t) d (iblk m c 2 t) := by
  unfold Dat.before; rw [if_pos (fetch0_2 t)]
  unfold Dat.fetched Dat.blockOf iblk; rw [A_eq]; try rfl
/-- and the output's buffer at contents nothing names (it was written back at the point before). -/
theorem before3 (c : Dev nD) (t : Fin cfg0.N) (d) : (dats m 0 c).before 3 t d = d := by
  unfold Dat.before
  rw [if_neg (by rw [fetch0_3 t]; exact Bool.false_ne_true)]
  split
  · rfl
  · dsimp only; rw [if_pos (flush0_3 _)]

/-! ## The output block on the columns written back -/

/-- The printed index maps and cuts, decided once over the grid: the head windows sit at block 0, the entity window's
    block index on rows and the result window's on columns are the point, the entity window's cut on rows is the
    result window's cut on columns, and nothing else is cut. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_2.xsize (grid0.coords t) (0 : Fin 2) = win0_3.xsize (grid0.coords t) (1 : Fin 2)
    ∧ win0_2.xsize (grid0.coords t) (1 : Fin 2) = 512
    ∧ win0_3.xsize (grid0.coords t) (0 : Fin 2) = 16
    ∧ win0_3.xsize (grid0.coords t) (1 : Fin 2) = min 2048 (43234 - 2048 * t.val) :=
  (by decide +kernel : ∀ t : Fin grid0.N, _)

/-- The entity window's block, read at an index of the block's part inside the table, is the table's element there. -/
theorem read2 (c : Dev nD) (t : Fin cfg0.N) (j : (win0_2.xblock (grid0.coords t)).Idx) :
    iblk m c 2 t j = V (F := Ideal) m c main_arg4 (((cfg0.win 2).blk t).view.emb j) := by
  unfold iblk
  rw [View.read_apply]
  rfl

set_option maxHeartbeats 4000000 in
/-- The columns of the output block that the write-back moves are the result's block of the score table, whatever the
    entity buffer held past the table's end. -/
theorem blk_value (c : Dev nD) (t : Fin cfg0.N) (d2 : S2048x512.Idx → EReal) :
    win0_3.cut (grid0.coords t) (outBlk (F := Ideal) (iblk m c 0 t) (iblk m c 1 t) (win0_2.fill (grid0.coords t) d2 (iblk m c 2 t)))
      = (win0_3.blk t).view.read (Elt Ideal) (G m c) := by
  obtain ⟨i00, i01, i10, i11, i20, i21, i30, i31, xs20, xs21, xs30, -⟩ := idx_facts t
  funext y
  have hy0 : (y 0).val < win0_3.xsize (grid0.coords t) (0 : Fin 2) := (y 0).isLt
  have hy1 : (y 1).val < win0_3.xsize (grid0.coords t) (1 : Fin 2) := (y 1).isLt
  have hy1' : (y 1).val < 2048 := lt_of_lt_of_le hy1 (win0_3.xsize_le (grid0.coords t) (1 : Fin 2))
  rw [xs30] at hy0
  show outBlk (F := Ideal) (iblk m c 0 t) (iblk m c 1 t) (win0_2.fill (grid0.coords t) d2 (iblk m c 2 t)) (win0_3.xinj (grid0.coords t) y)
      = G m c ((win0_3.blk t).view.emb y)
  unfold outBlk
  rw [Cert.Payload.pay_apply]
  unfold G Cert.Spec.dist
  have e30 : (((win0_3.blk t).view.emb y) 0 : Nat) = (y 0).val := by
    show win0_3.index t (0 : Fin 2) * 16 + 1 * (y 0).val = _; omega
  have e31 : (((win0_3.blk t).view.emb y) 1 : Nat) = t.val * 2048 + (y 1).val := by
    show win0_3.index t (1 : Fin 2) * 2048 + 1 * (y 1).val = _; omega
  refine congr (congr (congrArg Cert.Spec.rowDist (funext fun k => ?_)) (funext fun k => ?_)) (funext fun l => ?_)
  · -- the real half of the head: block 0 of its array, read where the result's row says
    show V (F := Ideal) m c main_v24 (((cfg0.win 0).blk t).view.emb _) = V (F := Ideal) m c main_v24 _
    refine congrArg (V (F := Ideal) m c main_v24) (funext fun a => Fin.ext ?_)
    match a with
    | ⟨0, _⟩ => show win0_0.index t (0 : Fin 2) * 16 + 1 * (y 0).val = (((win0_3.blk t).view.emb y) 0 : Nat); omega
    | ⟨1, _⟩ => show win0_0.index t (1 : Fin 2) * 256 + 1 * k.val = k.val; omega
  · -- the imaginary half likewise
    show V (F := Ideal) m c main_v27 (((cfg0.win 1).blk t).view.emb _) = V (F := Ideal) m c main_v27 _
    refine congrArg (V (F := Ideal) m c main_v27) (funext fun a => Fin.ext ?_)
    match a with
    | ⟨0, _⟩ => show win0_1.index t (0 : Fin 2) * 16 + 1 * (y 0).val = (((win0_3.blk t).view.emb y) 0 : Nat); omega
    | ⟨1, _⟩ => show win0_1.index t (1 : Fin 2) * 256 + 1 * k.val = k.val; omega
  · -- the entity row: row `y` of the staged block lies inside the table (the two windows are cut alike), so the fetch
    -- landed the table's row there
    obtain ⟨j2, hj0, hj1⟩ : ∃ j2 : (win0_2.xblock (grid0.coords t)).Idx, (j2 0).val = (y 1).val ∧ (j2 1).val = l.val :=
      ⟨fun a => match a with
        | ⟨0, _⟩ => ⟨(y 1).val, by show (y 1).val < win0_2.xsize (grid0.coords t) (0 : Fin 2); rw [xs20]; exact hy1⟩
        | ⟨1, _⟩ => ⟨l.val, by show l.val < win0_2.xsize (grid0.coords t) (1 : Fin 2); rw [xs21]; exact l.isLt⟩, rfl, rfl⟩
    have hJ : (ix2 (n0 := 2048) (n1 := 512)
        ⟨128 * ((y 1).val / 128) + (y 1).val % 128, by omega⟩ ⟨l.val, l.isLt⟩ : S2048x512.Idx)
        = win0_2.xinj (grid0.coords t) j2 := by
      funext a; apply Fin.ext
      match a with
      | ⟨0, _⟩ => show 128 * ((y 1).val / 128) + (y 1).val % 128 = (j2 0).val; omega
      | ⟨1, _⟩ => show l.val = (j2 1).val; omega
    show win0_2.fill (grid0.coords t) d2 (iblk m c 2 t) (ix2 (n0 := 2048) (n1 := 512)
        ⟨128 * ((y 1).val / 128) + (y 1).val % 128, by omega⟩ ⟨l.val, l.isLt⟩) = _
    rw [hJ, Window.fill_xinj, read2 m c t j2]
    have e20 : ((((cfg0.win 2).blk t).view.emb j2) 0 : Nat) = t.val * 2048 + (j2 0).val := by
      show win0_2.index t (0 : Fin 2) * 2048 + 1 * (j2 0).val = _; omega
    have e21 : ((((cfg0.win 2).blk t).view.emb j2) 1 : Nat) = (j2 1).val := by
      show win0_2.index t (1 : Fin 2) * 512 + 1 * (j2 1).val = _; omega
    refine congrArg (V (F := Ideal) m c main_arg4) (funext fun a => Fin.ext ?_)
    match a with
    | ⟨0, _⟩ =>
      exact e20.trans (show t.val * 2048 + (j2 0).val = (((win0_3.blk t).view.emb y) 1 : Nat) by omega)
    | ⟨1, _⟩ => exact e21.trans hj1

/-! ## The body obligation -/

theorem body_obligation (c : Dev nD) : BodyObligationLoose (dats m 0 c) (defs₀ (F := Ideal)) Variants.none () Set.univ := fun t => by
  rw [bigSep_W0, bigSep_W0]
  simp only
  show _ ⊢ wp frame (wpE (defs₀ (F := Ideal)) Variants.none c none) Set.univ (bodyAt0 t) _
  rw [show (dats m 0 c).Φ t.succ = (dats m 0 c).Φ t.castSucc from rfl,
    show (dats m 0 c).owesAt () t.succ = (dats m 0 c).owesAt () t.castSucc from rfl]
  unfold bodyAt0
  iintro ⟨HΦ, Ho, ⟨%d0, H0⟩, ⟨%d1, H1⟩, ⟨%d2, H2⟩, ⟨%d3, H3⟩⟩
  rw [before0 m c t d0, before1 m c t d1, before2 m c t d2, before3 m c t d3]
  iapply ((kernelRun (F := Ideal) c (grid0.coords t) _ _ _ _ _ _ _ _ (iblk m c 0 t) (iblk m c 1 t)
    (win0_2.fill (grid0.coords t) d2 (iblk m c 2 t))).2 Set.univ _)
  isplitl [H0]; · iexact H0
  isplitl [H1]; · iexact H1
  isplitl [H2]; · iexact H2
  isplitl [H3]; · iexists _; iexact H3
  iintro ⟨H0, H1, H2, ⟨%f, H3⟩⟩
  isplitl [HΦ]; · iexact HΦ
  isplitl [Ho]; · iexact Ho
  rw [after0, after1, after2, after3]
  isplitl [H0]; · iexact H0
  isplitl [H1]; · iexact H1
  isplitl [H2]
  · iexists d2; rw [Window.cut_fill]; iexact H2
  · iexists (outBlk (F := Ideal) (iblk m c 0 t) (iblk m c 1 t) (win0_2.fill (grid0.coords t) d2 (iblk m c 2 t)))
    rw [Window.cut_fill, ← blk_value m c t d2, Window.fill_cut]
    unfold owns; iexists _; isplitr
    swap; · iexact H3
    ipureintro; exact read_run c _ _ _ _ _ _ _ _ _ _ _ _ _

/-! ## The run, the frame, the result -/

set_option backward.isDefEq.respectTransparency.types false in
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- THE FRAME of the idealized kernel program: its six argument arrays end as they were launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-! ## The result array after the run -/

/-- An index of the result is in point `t`'s block iff each coordinate is in the block's range on its axis, the range
    cut at the result's end. -/
theorem mem_blk3 (t : Fin cfg0.N) (i : S16x43234.Idx) :
    i ∈ ((cfg0.win 3).blk t).view.set ↔ ∀ a : Fin 2, win0_3.index t a * S16x2048.size a ≤ (i a).val
      ∧ (i a).val < win0_3.index t a * S16x2048.size a + win0_3.xsize (grid0.coords t) a := by
  show i ∈ ((View.whole main_v28).slice (win0_3.rect t)).set ↔ _
  rw [View.set_slice_whole, Rect.mem_set_unit]
  exact Iff.rfl

/-- Every entity column is in the block of the point that holds it: the 22 blocks, the last cut to 226 columns,
    cover the result. -/
theorem cover3 (i : S16x43234.Idx) :
    ∃ t : Fin cfg0.N, (cfg0.win 3).flush t = true ∧ i ∈ ((cfg0.win 3).blk t).view.set := by
  have hi0 : (i 0).val < 16 := idx2_lt0 i
  have hi1 : (i 1).val < 43234 := idx2_lt1 i
  have ht : (i 1).val / 2048 < 22 := by omega
  obtain ⟨-, -, -, -, -, -, i30, i31, -, -, xs30, xs31⟩ := idx_facts ⟨(i 1).val / 2048, ht⟩
  refine ⟨⟨(i 1).val / 2048, ht⟩, flush0_3 _, ?_⟩
  rw [mem_blk3]
  intro a
  match a with
  | ⟨0, _⟩ =>
    show win0_3.index ⟨(i 1).val / 2048, ht⟩ (0 : Fin 2) * 16 ≤ (i 0).val
      ∧ (i 0).val < win0_3.index ⟨(i 1).val / 2048, ht⟩ (0 : Fin 2) * 16 + win0_3.xsize (grid0.coords ⟨(i 1).val / 2048, ht⟩) (0 : Fin 2)
    rw [i30, xs30]; omega
  | ⟨1, _⟩ =>
    show win0_3.index ⟨(i 1).val / 2048, ht⟩ (1 : Fin 2) * 2048 ≤ (i 1).val
      ∧ (i 1).val < win0_3.index ⟨(i 1).val / 2048, ht⟩ (1 : Fin 2) * 2048 + win0_3.xsize (grid0.coords ⟨(i 1).val / 2048, ht⟩) (1 : Fin 2)
    rw [i31, xs31]
    show (i 1).val / 2048 * 2048 ≤ (i 1).val ∧ (i 1).val < (i 1).val / 2048 * 2048 + min 2048 (43234 - 2048 * ((i 1).val / 2048))
    omega

/-- THE RESULT: after the run the result array is the score table of the region-entry arrays. -/
theorem final (c : Dev nD) : (dats m 0 c).arrAt 3 cfg0.N = G m c :=
  (dats m 0 c).arrAt_eq_of_cover 3 (G m c) (fun t _ => by
    show (cfg0.win 3).cut (grid0.coords t) ((dats m 0 c).after 3 t) = _
    rw [after3, Window.cut_fill]) (cover3)

/-- The run re-posted: the result array at the score table, the arguments unchanged. -/
theorem run : θ_run defs (onTc (τ := τ) (main (F := Ideal))) ⟨m, fun _ => 0, ρ⟩ (fun r => ∀ c : Dev nD,
      r.2.mem ((c.tc : Thread nD τ).loc main_v28) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).1 3).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans (((dats m 0 c).arrAt_in 2 rfl _).trans ((A_eq m c 2).trans (V_main_arg4 m c))),
      ((h c).2 main_arg5 (Pipeline.mem_restRefs_of main_arg5 (by decide) (by decide))).trans (V_main_arg5 m c)⟩)
    (run_main m ρ)

end Cert.KernelIdeal.Body

end
-- ==== Proof.RefRead.lean ====
/-
  The reference program's result read one host operation at a time, at an index: element `(b, e)` of its score
  table is the score (`Spec.rowDist`) of row `b` of its rotated head against row `e` of the entity table.
-/
import proofs.«422263_j11063835754873_2_alg».proof.Proof.Gen.ReferenceIdeal.Read
import proofs.«422263_j11063835754873_2_alg».proof.Proof.Spec
import Idealize.ShloMosaic.Lib.ValueIdx
import Idealize.ShloMosaic.PureOps.Ideal.Laws

noncomputable section

namespace Cert.RefRead

open Idealize.ShloMosaic Idealize.ShloMosaic.ValueIdx Cert.ReferenceIdeal Cert.ReferenceIdeal.Read

/-- Column `k` of the head's real half, read through its two broadcasts at element `(i 0, i 1, k)` of the summand,
    is element `(i 0, k)` of the half: the entity axis is dropped. -/
private theorem idx_head_re (i : S16x43234.Idx) (k : Fin 256) :
    idx_main_v36 (idx_main_v38 (idx_main_v50 i k)) = ix2 (n0 := 16) (n1 := 256) ⟨(i 0).val, (i 0).isLt⟩ k :=
  funext fun a => Fin.ext (by match a with | ⟨0, _⟩ => rfl | ⟨1, _⟩ => rfl)

/-- The same for the head's imaginary half. -/
private theorem idx_head_im (i : S16x43234.Idx) (k : Fin 256) :
    idx_main_v41 (idx_main_v43 (idx_main_v50 i k)) = ix2 (n0 := 16) (n1 := 256) ⟨(i 0).val, (i 0).isLt⟩ k :=
  funext fun a => Fin.ext (by match a with | ⟨0, _⟩ => rfl | ⟨1, _⟩ => rfl)

/-- Column `k` of the entity table's left slice, read through its two broadcasts at element `(i 0, i 1, k)` of the
    summand, is element `(i 1, k)` of the table: the batch axis is dropped and the slice starts at column 0. -/
private theorem idx_ent_lo (i : S16x43234.Idx) (k : Fin 256) :
    idx_main_v34 (idx_main_v37 (idx_main_v39 (idx_main_v50 i k)))
      = ix2 (n0 := 43234) (n1 := 512) ⟨(i 1).val, (i 1).isLt⟩ (Cert.Spec.lo k) :=
  funext fun a => Fin.ext (by match a with | ⟨0, _⟩ => rfl | ⟨1, _⟩ => rfl)

/-- The same for the right slice, which starts at column 256: element `(i 1, 256 + k)` of the table. -/
private theorem idx_ent_hi (i : S16x43234.Idx) (k : Fin 256) :
    idx_main_v35 (idx_main_v42 (idx_main_v44 (idx_main_v50 i k)))
      = ix2 (n0 := 43234) (n1 := 512) ⟨(i 1).val, (i 1).isLt⟩ (Cert.Spec.hi k) :=
  funext fun a => Fin.ext (by match a with | ⟨0, _⟩ => rfl | ⟨1, _⟩ => rfl)

/-- The reference's result is the score table of its own rotated head (the stages `%30`, `%33`) and the entity
    table. -/
theorem result_eq (x0 : (⟨S16x64x768, .f32⟩ : BufTy).Contents (Elt Ideal)) (x1 : (⟨S18x768, .f32⟩ : BufTy).Contents (Elt Ideal))
    (x2 : (⟨S18, .f32⟩ : BufTy).Contents (Elt Ideal)) (x3 : (⟨S18x256, .f32⟩ : BufTy).Contents (Elt Ideal))
    (x4 : (⟨S43234x512, .f32⟩ : BufTy).Contents (Elt Ideal)) (x5 : (⟨S16, .i32⟩ : BufTy).Contents (Elt Ideal)) :
    val_main_v52 (F := Ideal) x0 x1 x2 x3 x4 x5
      = Cert.Spec.dist (val_main_v30 (F := Ideal) x0 x1 x2 x3 x4 x5) (val_main_v33 (F := Ideal) x0 x1 x2 x3 x4 x5) x4 := by
  funext i
  unfold Cert.Spec.dist Cert.Spec.rowDist
  -- the margin 6 less the sum, from 0, over the 256 coordinates
  rw [val_main_v52_apply, val_main_v51_apply, val_main_cst_6_apply, val_main_v50_apply, val_main_cst_5_apply]
  simp only [Ideal.subf_def, Ideal.ofBits_def, Ideal.ofBits_zero_f32, zero_add]
  refine congrArg (_ - ·) (Finset.sum_congr rfl fun k _ => ?_)
  -- one summand: the modulus of the difference at coordinate `k`, each operand read back to its source element
  rw [val_main_v49_apply, val_main_v48_apply, val_main_v46_apply, val_main_v47_apply, val_main_v40_apply,
    val_main_v45_apply, val_main_v38_apply, val_main_v36_apply, val_main_v43_apply, val_main_v41_apply,
    val_main_v39_apply, val_main_v37_apply, val_main_v34_apply, val_main_v44_apply, val_main_v42_apply,
    val_main_v35_apply, idx_head_re, idx_head_im, idx_ent_lo, idx_ent_hi]
  simp only [Ideal.subf_def, Ideal.mulf_def, Ideal.addf_def, Ideal.hostUnary_sqrt_def]

end Cert.RefRead

end
-- ==== Proof.Prelude.lean ====
/-
  The host operations before the kernel's one region, against the reference's: under the precondition (every head
  id in `[0, 43234)`) the bounds mask of the kernel's table lookup is all ones, its selection returns the gathered
  rows, and the two rotated-head blocks the region is launched on are the reference's stages `%30` and `%33` of the
  same arguments.
-/
import proofs.«422263_j11063835754873_2_alg».proof.Defs
import proofs.«422263_j11063835754873_2_alg».proof.Proof.Gen.KernelIdeal.Frame
import proofs.«422263_j11063835754873_2_alg».proof.Proof.Gen.ReferenceIdeal.Read
import proofs.«422263_j11063835754873_2_alg».proof.Proof.Gen.Pre_finite_inputs
import Idealize.ShloMosaic.Lib.StableHlo.Run
import Idealize.ShloMosaic.Lib.StableHlo.Predicate
import Idealize.ShloMosaic.Lib.ReduceAll

noncomputable section

namespace Cert.Prelude

open Idealize.ShloMosaic Idealize.ShloMosaic.TcCoe Idealize.SL.Sem

/-! ## Words

A head id `a` with `0 ≤ a < 43234` (signed) is not negative, so the lookup's wrap-around `a < 0 ? a + 43234 : a` returns
`a` itself, and `a` passes the lookup's bounds test `0 ≤ a ≤ 43233`. -/

/-- The wrapped id of an id in range passes the bounds test. -/
private theorem word_ok (a : BitVec 32)
    (h : IntOp.andi (IntOp.cmpi .sge a 0#32) (IntOp.cmpi .slt a 43234#32) = 1#1) :
    IntOp.andi
      (IntOp.cmpi .sge (Scalar.select (IntOp.cmpi .slt a 0#32) (IntOp.addi a 43234#32) a) 0#32)
      (IntOp.cmpi .sle (Scalar.select (IntOp.cmpi .slt a 0#32) (IntOp.addi a 43234#32) a) 43233#32) = 1#1 := by
  obtain ⟨h0, h1⟩ := IntOp.andi_eq_one.1 h
  rw [IntOp.cmpi_sge] at h0
  rw [IntOp.cmpi_slt] at h1
  have z : (0#32 : BitVec 32).toInt = 0 := by decide
  have n : (43234#32 : BitVec 32).toInt = 43234 := by decide
  have n' : (43233#32 : BitVec 32).toInt = 43233 := by decide
  rw [z] at h0
  rw [n] at h1
  have hs : ¬ (IntOp.cmpi .slt a 0#32 = 1#1) := by rw [IntOp.cmpi_slt, z]; omega
  have e : Scalar.select (IntOp.cmpi .slt a 0#32) (IntOp.addi a 43234#32) a = a := by
    unfold Scalar.select
    exact if_neg hs
  rw [e, IntOp.andi_eq_one, IntOp.cmpi_sge, IntOp.cmpi_sle, z, n']
  exact ⟨h0, by omega⟩

/-- A selection on a set bit takes its first branch. -/
private theorem select_one {α : Type} (a b : α) : Scalar.select (1#1) a b = a := by
  unfold Scalar.select
  exact if_pos rfl

/-- A left fold by `and` from 1 over words that are all 1 is 1. -/
private theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi (1#1) (1#1) = 1#1 := by decide
    rw [List.foldl_cons, hf a, e]
    exact foldl_andi_ones f hf l

/-- A reduction by `and` from 1 of an array of ones is 1 everywhere. -/
private theorem reduce_andi_ones {s t u : Shape} {axes : List (Fin s.rank)} (x : s.Idx → BitVec 1)
    (init : u.Idx → BitVec 1) (h : s.ReducesTo axes t) (hu : 0 < u.numel) (hx : ∀ i, x i = 1#1)
    (hi : ∀ k, init k = 1#1) (j : t.Idx) : Host.reduce IntOp.andi x init h hu j = 1#1 := by
  unfold Host.reduce
  rw [hi]
  exact foldl_andi_ones (fun n => x (s.rowMajor.symm n)) (fun n => hx _) _

section Entry

open Cert.KernelIdeal Cert.KernelIdeal.Gen

variable {F : FTy → Type} [FloatOps F]

/-! ## The region-entry contents as closed terms -/

/-- The lookup's bounds mask, one bit a head: the wrapped id (the reference's stage `%20`, the same operations on both
    sides) is in `[0, 43233]`. -/
def kMask (x5 : (⟨S16, .i32⟩ : BufTy).Contents (Elt F)) : (⟨S16, .i1⟩ : BufTy).Contents (Elt F) :=
  Host.reduce IntOp.andi
    (andi
      (cmpi .sge (Cert.ReferenceIdeal.Read.val_main_v20 (F := F) x5)
        (broadcastInDim S16x1 ![] bcast_S_S16x1 (constantI S_ 32 0#32)))
      (cmpi .sle (Cert.ReferenceIdeal.Read.val_main_v20 (F := F) x5)
        (broadcastInDim S16x1 ![0, 1] bcast_S1x1_S16x1_0_1
          (broadcastInDim S1x1 ![1] bcast_S1_S1x1_1 (constantI S1 32 43233#32)))))
    (constantI S_ 1 1#1) reducesTo_S16x1_S16_d1 h_S_

/-- The head rows as the kernel's lookup leaves them: the gathered rows where the mask is set, a constant elsewhere. -/
def kHead (x4 : (⟨S43234x512, .f32⟩ : BufTy).Contents (Elt F)) (x5 : (⟨S16, .i32⟩ : BufTy).Contents (Elt F)) :
    (⟨S16x512, .f32⟩ : BufTy).Contents (Elt F) :=
  select
    (broadcastInDim S16x512 ![0] bcast_S16_S16x512_0 (kMask x5))
    (Host.gather gather_S43234x512_S16x1_S16x512_1_0_n_n_0_1_1512 x4 (Cert.ReferenceIdeal.Read.val_main_v20 (F := F) x5))
    (broadcastInDim S16x512 ![] bcast_S_S16x512 (constant S_ .f32 0x7FC00000#32))

/-- The real half of the rotation of head rows `h` by the phase `pr / c`: `re · cos − im · sin`. -/
def rotRe (pr : (⟨S16x256, .f32⟩ : BufTy).Contents (Elt F)) (h : (⟨S16x512, .f32⟩ : BufTy).Contents (Elt F)) :
    (⟨S16x256, .f32⟩ : BufTy).Contents (Elt F) :=
  subf
    (mulf (extractStridedSlice S16x256 ![0, 0] h slices_S16x512_S16x256_0_0)
      (Host.cos (Host.divf pr (broadcastInDim S16x256 ![] bcast_S_S16x256 (constant S_ .f32 0x3C22F983#32)))))
    (mulf (extractStridedSlice S16x256 ![0, 256] h slices_S16x512_S16x256_0_256)
      (Host.sin (Host.divf pr (broadcastInDim S16x256 ![] bcast_S_S16x256 (constant S_ .f32 0x3C22F983#32)))))

/-- The imaginary half: `re · sin + im · cos`. -/
def rotIm (pr : (⟨S16x256, .f32⟩ : BufTy).Contents (Elt F)) (h : (⟨S16x512, .f32⟩ : BufTy).Contents (Elt F)) :
    (⟨S16x256, .f32⟩ : BufTy).Contents (Elt F) :=
  addf
    (mulf (extractStridedSlice S16x256 ![0, 0] h slices_S16x512_S16x256_0_0)
      (Host.sin (Host.divf pr (broadcastInDim S16x256 ![] bcast_S_S16x256 (constant S_ .f32 0x3C22F983#32)))))
    (mulf (extractStridedSlice S16x256 ![0, 256] h slices_S16x512_S16x256_0_256)
      (Host.cos (Host.divf pr (broadcastInDim S16x256 ![] bcast_S_S16x256 (constant S_ .f32 0x3C22F983#32)))))

set_option maxRecDepth 8192 in
/-- The real block the region is launched on: the rotation of the kernel's head rows by the reference's phase
    numerator (stage `%14`, the same operations on both sides). -/
theorem entry_re (m : (ℓ : Loc nD τ sig) → Buf (Elt F) ℓ) (c : Dev nD) :
    (Gen.V (F := F) m c main_v24 : S16x256.Idx → Elt F .f32)
      = rotRe (Cert.ReferenceIdeal.Read.val_main_v14 (F := F)
            (m ((c.tc : Thread nD τ).loc main_arg0)) (m ((c.tc : Thread nD τ).loc main_arg1))
            (m ((c.tc : Thread nD τ).loc main_arg2)) (m ((c.tc : Thread nD τ).loc main_arg3)))
          (kHead (m ((c.tc : Thread nD τ).loc main_arg4)) (m ((c.tc : Thread nD τ).loc main_arg5))) := by
  dsimp only [Gen.V]
  simp only [Gen.hostOps0, Gen.hostOps0_1, Gen.hostOps0_2, List.flatten_cons, List.flatten_nil, List.append_nil,
    List.cons_append, List.nil_append]
  after_results_simp
  simp only [StableHlo.TRef.ofBuf, StableHlo.TRef.toBuf, cast_eq]
  rfl

set_option maxRecDepth 8192 in
/-- The imaginary block likewise. -/
theorem entry_im (m : (ℓ : Loc nD τ sig) → Buf (Elt F) ℓ) (c : Dev nD) :
    (Gen.V (F := F) m c main_v27 : S16x256.Idx → Elt F .f32)
      = rotIm (Cert.ReferenceIdeal.Read.val_main_v14 (F := F)
            (m ((c.tc : Thread nD τ).loc main_arg0)) (m ((c.tc : Thread nD τ).loc main_arg1))
            (m ((c.tc : Thread nD τ).loc main_arg2)) (m ((c.tc : Thread nD τ).loc main_arg3)))
          (kHead (m ((c.tc : Thread nD τ).loc main_arg4)) (m ((c.tc : Thread nD τ).loc main_arg5))) := by
  dsimp only [Gen.V]
  simp only [Gen.hostOps0, Gen.hostOps0_1, Gen.hostOps0_2, List.flatten_cons, List.flatten_nil, List.append_nil,
    List.cons_append, List.nil_append]
  after_results_simp
  simp only [StableHlo.TRef.ofBuf, StableHlo.TRef.toBuf, cast_eq]
  rfl

/-- The reference's stage `%30` is the same rotation of its gathered rows (stage `%21`). -/
theorem rotRe_ref (x0 : (⟨S16x64x768, .f32⟩ : BufTy).Contents (Elt F)) (x1 : (⟨S18x768, .f32⟩ : BufTy).Contents (Elt F))
    (x2 : (⟨S18, .f32⟩ : BufTy).Contents (Elt F)) (x3 : (⟨S18x256, .f32⟩ : BufTy).Contents (Elt F))
    (x4 : (⟨S43234x512, .f32⟩ : BufTy).Contents (Elt F)) (x5 : (⟨S16, .i32⟩ : BufTy).Contents (Elt F)) :
    rotRe (Cert.ReferenceIdeal.Read.val_main_v14 (F := F) x0 x1 x2 x3) (Cert.ReferenceIdeal.Read.val_main_v21 (F := F) x4 x5)
      = Cert.ReferenceIdeal.Read.val_main_v30 (F := F) x0 x1 x2 x3 x4 x5 := rfl

/-- And its stage `%33` the imaginary half. -/
theorem rotIm_ref (x0 : (⟨S16x64x768, .f32⟩ : BufTy).Contents (Elt F)) (x1 : (⟨S18x768, .f32⟩ : BufTy).Contents (Elt F))
    (x2 : (⟨S18, .f32⟩ : BufTy).Contents (Elt F)) (x3 : (⟨S18x256, .f32⟩ : BufTy).Contents (Elt F))
    (x4 : (⟨S43234x512, .f32⟩ : BufTy).Contents (Elt F)) (x5 : (⟨S16, .i32⟩ : BufTy).Contents (Elt F)) :
    rotIm (Cert.ReferenceIdeal.Read.val_main_v14 (F := F) x0 x1 x2 x3) (Cert.ReferenceIdeal.Read.val_main_v21 (F := F) x4 x5)
      = Cert.ReferenceIdeal.Read.val_main_v33 (F := F) x0 x1 x2 x3 x4 x5 := rfl

/-! ## The mask is all ones -/

/-- The wrapped id at a row of the index column, as a word of the id vector. -/
theorem idx_word (x5 : (⟨S16, .i32⟩ : BufTy).Contents (Elt F)) (i : S16x1.Idx) :
    Cert.ReferenceIdeal.Read.val_main_v20 (F := F) x5 i
      = Scalar.select (IntOp.cmpi .slt (x5 (Cert.ReferenceIdeal.Read.idx_main_v20 i)) 0#32)
          (IntOp.addi (x5 (Cert.ReferenceIdeal.Read.idx_main_v20 i)) 43234#32) (x5 (Cert.ReferenceIdeal.Read.idx_main_v20 i)) := by
  rw [Cert.ReferenceIdeal.Read.val_main_v20_apply, Cert.ReferenceIdeal.Read.val_main_v19_apply,
    Cert.ReferenceIdeal.Read.val_main_v16_apply, Cert.ReferenceIdeal.Read.val_main_v18_apply,
    Cert.ReferenceIdeal.Read.val_main_v15_apply, Cert.ReferenceIdeal.Read.val_main_v17_apply,
    Cert.ReferenceIdeal.Read.val_main_c_apply, Cert.ReferenceIdeal.Read.val_main_c_3_apply]

/-- With every id in range the mask is all ones. -/
theorem kMask_one (x5 : (⟨S16, .i32⟩ : BufTy).Contents (Elt F))
    (hx : ∀ b : S16.Idx, IntOp.andi (IntOp.cmpi .sge (x5 b) 0#32) (IntOp.cmpi .slt (x5 b) 43234#32) = 1#1)
    (b : S16.Idx) : kMask x5 b = 1#1 := by
  unfold kMask
  refine reduce_andi_ones _ _ _ _ (fun i => ?_) (fun _ => rfl) b
  show IntOp.andi (IntOp.cmpi .sge (Cert.ReferenceIdeal.Read.val_main_v20 (F := F) x5 i) 0#32)
    (IntOp.cmpi .sle (Cert.ReferenceIdeal.Read.val_main_v20 (F := F) x5 i) 43233#32) = 1#1
  rw [idx_word]
  exact word_ok _ (hx _)

/-- So the kernel's head rows are the gathered rows: the reference's stage `%21`. -/
theorem kHead_eq (x4 : (⟨S43234x512, .f32⟩ : BufTy).Contents (Elt F)) (x5 : (⟨S16, .i32⟩ : BufTy).Contents (Elt F))
    (hx : ∀ b : S16.Idx, IntOp.andi (IntOp.cmpi .sge (x5 b) 0#32) (IntOp.cmpi .slt (x5 b) 43234#32) = 1#1) :
    kHead x4 x5 = Cert.ReferenceIdeal.Read.val_main_v21 (F := F) x4 x5 := by
  funext j
  have hc : broadcastInDim S16x512 ![0] bcast_S16_S16x512_0 (kMask x5) j = 1#1 := kMask_one x5 hx _
  unfold kHead
  show Scalar.select (broadcastInDim S16x512 ![0] bcast_S16_S16x512_0 (kMask x5) j) _ _ = _
  rw [hc, select_one]
  rfl

end Entry

/-! ## The precondition, decoded -/

/-- Every head id the launch memory holds is in `[0, 43234)`: the last conjunct of the precondition, read back. -/
theorem pre_ids (m : (ℓ : Loc Cert.KernelIdeal.nD Cert.KernelIdeal.τ Cert.KernelIdeal.sig) → Buf (Elt Ideal) ℓ)
    (hpre : Cert.Pre_KernelIdeal m) (c : Dev Cert.KernelIdeal.nD) (b : Cert.KernelIdeal.S16.Idx) :
    IntOp.andi
      (IntOp.cmpi .sge (m ((c.tc : Thread Cert.KernelIdeal.nD Cert.KernelIdeal.τ).loc Cert.KernelIdeal.main_arg5) b) 0#32)
      (IntOp.cmpi .slt (m ((c.tc : Thread Cert.KernelIdeal.nD Cert.KernelIdeal.τ).loc Cert.KernelIdeal.main_arg5) b) 43234#32)
      = 1#1 := by
  have h := congrFun (hpre c) ValueIdx.ix0
  unfold Cert.Pre_finite_inputs.fn Cert.Pre_finite_inputs.fn_part1 at h
  dsimp only at h
  have h29 := (IntOp.andi_eq_one.1 h).2
  haveI : Subsingleton Cert.Pre_finite_inputs.S_.Idx := ⟨fun a b => funext fun d => d.elim0⟩
  exact Host.reduce_andi_all _ _ _ _ _ h29 b

/-- The real half of the rotated head, as the region finds it, is the reference's stage `%30` of the arguments. -/
theorem rot_re_eq (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.KernelIdeal.Gen.V (F := Ideal) m c Cert.KernelIdeal.main_v24 : Cert.KernelIdeal.S16x256.Idx → EReal)
      = Cert.ReferenceIdeal.Read.val_main_v30 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  refine (entry_re (F := Ideal) m c).trans ?_
  rw [kHead_eq _ _ (pre_ids m hpre c)]
  exact rotRe_ref _ _ _ _ _ _

/-- The imaginary half likewise is the reference's stage `%33`. -/
theorem rot_im_eq (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.KernelIdeal.Gen.V (F := Ideal) m c Cert.KernelIdeal.main_v27 : Cert.KernelIdeal.S16x256.Idx → EReal)
      = Cert.ReferenceIdeal.Read.val_main_v33 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  refine (entry_im (F := Ideal) m c).trans ?_
  rw [kHead_eq _ _ (pre_ids m hpre c)]
  exact rotIm_ref _ _ _ _ _ _

end Cert.Prelude

end
-- ==== Proof.lean ====
/-
  The certificate: a knowledge-graph scoring kernel against its jnp reference, over the extended reals.

  Both programs pool a question's hidden states, score 18 relations, mix the relation embeddings into a phase, look up
  16 head entities in the entity table, rotate each head by the phase (a complex multiplication, coordinate by
  coordinate), and score every one of the 43234 entities `e` against every rotated head `b` by
  `6 − ∑ₖ √((re_b,k − re_e,k)² + (im_b,k − im_e,k)²)`. The kernel program does the last step in a pipelined region
  that streams the entity table in 22 blocks of 2048 rows (the last cut to 226) and scores each block in 16 slabs of
  128 entities; the reference does it as one broadcast over `[16, 43234, 256]`.

  The two differ in one place only: the kernel's lookup is `jnp.take` in its fill mode (a bounds mask and a selection
  against a fill word), the reference's is a plain gather. Under the precondition — every head id in `[0, 43234)`,
  outside which the reference itself indexes out of range — the mask is all ones and the two lookups agree
  (`Proof/Prelude.lean`). From there on the two programs compute the same function element by element
  (`Spec.rowDist`): `Proof/FrameI.lean` reads the kernel's result array after the run, `Proof/RefRead.lean` the
  reference's, and no algebraic law of the extended reals is needed to join them. The frames: the idealized kernel's
  from the same run, the printed kernel's from relational proof data (`Proof/FrameK.lean`), the reference's from its
  run; the ideal pass rewrote nothing, so `preserves` is `True`.
-/
import proofs.«422263_j11063835754873_2_alg».proof.Defs
import proofs.«422263_j11063835754873_2_alg».proof.Proof.Gen.Kernel
import proofs.«422263_j11063835754873_2_alg».proof.Proof.Gen.KernelIdeal
import proofs.«422263_j11063835754873_2_alg».proof.Proof.Gen.ReferenceIdeal
import proofs.«422263_j11063835754873_2_alg».proof.Proof.Gen.ReferenceIdeal.Run
import proofs.«422263_j11063835754873_2_alg».proof.Proof.Gen.ReferenceIdeal.Read
import proofs.«422263_j11063835754873_2_alg».proof.Proof.Gen.Pre_finite_inputs
import proofs.«422263_j11063835754873_2_alg».proof.Proof.FrameK
import proofs.«422263_j11063835754873_2_alg».proof.Proof.FrameI
import proofs.«422263_j11063835754873_2_alg».proof.Proof.RefRead
import proofs.«422263_j11063835754873_2_alg».proof.Proof.Prelude
import Idealize.ShloMosaic.Adequacy
import Idealize.ShloMosaic.Init

noncomputable section

namespace Cert.Proof

open Idealize.ShloMosaic Idealize.SL.Sem

theorem frame_k : Cert.frame_Kernel := fun m ρ _ => Cert.Kernel.Body.frame (F := Bits) m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the six arguments, the kernel's result array ends at the score table of its rotated
    head and the entity table, the reference's at the score table of ITS rotated head and the same table; under the
    precondition the two rotated heads are one. -/
theorem algebraic : Cert.algebraic_KernelIdeal_ReferenceIdeal := by
  intro m ρ m' ρ' hpre hagree
  refine ⟨fun c => Cert.KernelIdeal.Body.G m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v52_eq, Cert.RefRead.result_eq, a0, a1, a2, a3, a4, a5]
  show _ = Cert.Spec.dist (Cert.KernelIdeal.Gen.V (F := Ideal) m c Cert.KernelIdeal.main_v24)
    (Cert.KernelIdeal.Gen.V (F := Ideal) m c Cert.KernelIdeal.main_v27)
    (Cert.KernelIdeal.Gen.V (F := Ideal) m c Cert.KernelIdeal.main_arg4)
  rw [Cert.Prelude.rot_re_eq m hpre c, Cert.Prelude.rot_im_eq m hpre c, Cert.KernelIdeal.Gen.V_main_arg4]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
